-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S32x512 : Shape := ⟨2, ![32, 512]⟩
abbrev S32x2048 : Shape := ⟨2, ![32, 2048]⟩
abbrev S1536x512 : Shape := ⟨2, ![1536, 512]⟩
abbrev S512x1 : Shape := ⟨2, ![512, 1]⟩
abbrev S1x512 : Shape := ⟨2, ![1, 512]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S32x512 : S_.BroadcastsInDim S32x512 (![] : Fin 0 → Fin S32x512.rank)
  reducesTo_S32x512_S_d0_1 : S32x512.ReducesTo [0, 1] S_
  bcast_S_S1536x512 : S_.BroadcastsInDim S1536x512 (![] : Fin 0 → Fin S1536x512.rank)
  reducesTo_S1536x512_S_d0_1 : S1536x512.ReducesTo [0, 1] S_
  bcast_S_S512x1 : S_.BroadcastsInDim S512x1 (![] : Fin 0 → Fin S512x1.rank)
  reducesTo_S512x1_S_d0_1 : S512x1.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg5 : FVec F S1x512 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S1x512 .f32 := Host.absf main_arg5
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  main_v23

def fn {F : FTy → Type} [FloatOps F] (main_arg0 : FVec F S32x2048x512 .f32) (main_arg1 : FVec F S32x512 .f32) (main_arg2 : IVec S32x2048 32) (main_arg3 : FVec F S1536x512 .f32) (main_arg4 : FVec F S512x1 .f32) (main_arg5 : FVec F S1x512 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S1536x512 .f32 := Host.absf main_arg3
  let main_cst_2 : FVec F S_ .f32 := constant S_ .f32 0x7F800000#32
  let main_v10 : FVec F S1536x512 .f32 := broadcastInDim S1536x512 ![] bcast_S_S1536x512 main_cst_2
  let main_v11 : IVec S1536x512 1 := cmpf .olt main_v9 main_v10
  let main_c_3 : IVec S_ 1 := constantI S_ 1 1#1
  let main_v12 : IVec S_ 1 := (fun x v => Host.reduce IntOp.andi x v reducesTo_S1536x512_S_d0_1 h_S_) main_v11 main_c_3
  let main_v13 : IVec S_ 1 := andi main_v8 main_v12
  let main_v14 : FVec F S512x1 .f32 := Host.absf main_arg4
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg5 main_v13 main_v16
-- ==== Kernel.lean ====
abbrev S32x2048x512 : Shape := ⟨3, ![32, 2048, 512]⟩
abbrev S32x512 : Shape := ⟨2, ![32, 512]⟩
abbrev S32x2048 : Shape := ⟨2, ![32, 2048]⟩
abbrev S1536x512 : Shape := ⟨2, ![1536, 512]⟩
abbrev S512x1 : Shape := ⟨2, ![512, 1]⟩
abbrev S1x512 : Shape := ⟨2, ![1, 512]⟩
abbrev S32x1x2048 : Shape := ⟨3, ![32, 1, 2048]⟩
abbrev S512x512 : Shape := ⟨2, ![512, 512]⟩
abbrev S32x1x512 : Shape := ⟨3, ![32, 1, 512]⟩
abbrev S1x2048x512 : Shape := ⟨3, ![1, 2048, 512]⟩
abbrev S1x1x2048 : Shape := ⟨3, ![1, 1, 2048]⟩
abbrev S1x1x512 : Shape := ⟨3, ![1, 1, 512]⟩
abbrev S1x512x512 : Shape := ⟨3, ![1, 512, 512]⟩
abbrev S512 : Shape := ⟨1, ![512]⟩
abbrev S1x1 : Shape := ⟨2, ![1, 1]⟩
abbrev S1 : Shape := ⟨1, ![1]⟩
abbrev S32x2048x1 : Shape := ⟨3, ![32, 2048, 1]⟩

abbrev nBuf : Space → Nat
  | .hbm => 22
  | .vmem => 13
  | .smem => 0
  | _ => 0

abbrev bufTy : (tb : Table) → Fin (tcTables nBuf tb) → BufTy
  | .hbm, ⟨0, _⟩ => ⟨S32x2048x512, .f32⟩
  | .hbm, ⟨1, _⟩ => ⟨S32x512, .f32⟩
  | .hbm, ⟨2, _⟩ => ⟨S32x2048, .i32⟩
  | .hbm, ⟨3, _⟩ => ⟨S1536x512, .f32⟩
  | .hbm, ⟨4, _⟩ => ⟨S512x1, .f32⟩
  | .hbm, ⟨5, _⟩ => ⟨S1x512, .f32⟩
  | .hbm, ⟨6, _⟩ => ⟨S32x1x2048, .i32⟩
  | .hbm, ⟨7, _⟩ => ⟨S32x1x2048, .f32⟩
  | .hbm, ⟨8, _⟩ => ⟨S512x512, .f32⟩
  | .hbm, ⟨9, _⟩ => ⟨S512x512, .bf16⟩
  | .hbm, ⟨10, _⟩ => ⟨S512x512, .f32⟩
  | .hbm, ⟨11, _⟩ => ⟨S512x512, .bf16⟩
  | .hbm, ⟨12, _⟩ => ⟨S512x512, .f32⟩
  | .hbm, ⟨13, _⟩ => ⟨S1x512, .f32⟩
  | .hbm, ⟨14, _⟩ => ⟨S32x512, .f32⟩
  | .hbm, ⟨15, _⟩ => ⟨S32x512, .f32⟩
  | .hbm, ⟨16, _⟩ => ⟨S32x512, .f32⟩
  | .hbm, ⟨17, _⟩ => ⟨S32x1x512, .f32⟩
  | .hbm, ⟨18, _⟩ => ⟨S32x1x512, .f32⟩
  | .hbm, ⟨19, _⟩ => ⟨S32x1x2048, .f32⟩
  | .hbm, ⟨20, _⟩ => ⟨S32x512, .f32⟩
  | .hbm, ⟨21, _⟩ => ⟨S32x2048x1, .f32⟩
  | .local _ .vmem, ⟨0, _⟩ => ⟨S1x2048x512, .f32⟩
  | .local _ .vmem, ⟨1, _⟩ => ⟨S1x2048x512, .f32⟩
  | .local _ .vmem, ⟨2, _⟩ => ⟨S1x1x2048, .f32⟩
  | .local _ .vmem, ⟨3, _⟩ => ⟨S1x1x2048, .f32⟩
  | .local _ .vmem, ⟨4, _⟩ => ⟨S1x1x512, .f32⟩
  | .local _ .vmem, ⟨5, _⟩ => ⟨S1x1x512, .f32⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S1x1x512, .f32⟩
  | .local _ .vmem, ⟨10, _⟩ => ⟨S1x1x512, .f32⟩
  | .local _ .vmem, ⟨11, _⟩ => ⟨S1x1x2048, .f32⟩
  | .local _ .vmem, ⟨12, _⟩ => ⟨S1x1x2048, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S32x2048_S32x1x2048_0_2 : S32x2048.BroadcastsInDim S32x1x2048 (![0, 2] : Fin 2 → Fin S32x1x2048.rank)
  slices_S1536x512_S512x512_0_0 : S1536x512.Slices ![0, 0] S512x512
  bitsLt_bf16_f32 : FTy.bits .bf16 < FTy.bits .f32
  slices_S1536x512_S512x512_512_0 : S1536x512.Slices ![512, 0] S512x512
  slices_S1536x512_S512x512_1024_0 : S1536x512.Slices ![1024, 0] S512x512
  transposes_S512x1_S1x512_1_0 : S512x1.Transposes [1, 0] S1x512
  bcast_S1x512_S32x512_0_1 : S1x512.BroadcastsInDim S32x512 (![0, 1] : Fin 2 → Fin S32x512.rank)
  bcast_S32x512_S32x1x512_0_2 : S32x512.BroadcastsInDim S32x1x512 (![0, 2] : Fin 2 → Fin S32x1x512.rank)
  inb_S1x2048x512_S1x512x512_0_0_0 : ∀ a, (![0, 0, 0] : Fin 3 → Nat) a + S1x512x512.size a ≤ S1x2048x512.size a
  h_S1x512x512 : 0 < S1x512x512.numel
  shapeCasts_S1x512x512_S512x512 : S1x512x512.ShapeCasts S512x512
  inb_S1x1x2048_S1x1x512_0_0_0 : ∀ a, (![0, 0, 0] : Fin 3 → Nat) a + S1x1x512.size a ≤ S1x1x2048.size a
  h_S1x1x512 : 0 < S1x1x512.numel
  shapeCasts_S1x1x512_S1x512 : S1x1x512.ShapeCasts S1x512
  transposes_S1x512_p1_0_S512x1 : S1x512.Transposes [1, 0] S512x1
  broadcasts_S512x1_S512x512 : S512x1.Broadcasts S512x512
  reduces_S512x512_S512 : S512x512.Reduces [0] S512
  shapeCasts_S512_S1x512 : S512.ShapeCasts S1x512
  inb_S1x2048x512_S1x512x512_0_512_0 : ∀ a, (![0, 512, 0] : Fin 3 → Nat) a + S1x512x512.size a ≤ S1x2048x512.size a
  inb_S1x1x2048_S1x1x512_0_0_512 : ∀ a, (![0, 0, 512] : Fin 3 → Nat) a + S1x1x512.size a ≤ S1x1x2048.size a
  inb_S1x2048x512_S1x512x512_0_1024_0 : ∀ a, (![0, 1024, 0] : Fin 3 → Nat) a + S1x512x512.size a ≤ S1x2048x512.size a
  inb_S1x1x2048_S1x1x512_0_0_1024 : ∀ a, (![0, 0, 1024] : Fin 3 → Nat) a + S1x1x512.size a ≤ S1x1x2048.size a
  inb_S1x2048x512_S1x512x512_0_1536_0 : ∀ a, (![0, 1536, 0] : Fin 3 → Nat) a + S1x512x512.size a ≤ S1x2048x512.size a
  inb_S1x1x2048_S1x1x512_0_0_1536 : ∀ a, (![0, 0, 1536] : Fin 3 → Nat) a + S1x1x512.size a ≤ S1x1x2048.size a
  inb_S1x1x512_S1x1x512_0_0_0 : ∀ a, (![0, 0, 0] : Fin 3 → Nat) a + S1x1x512.size a ≤ S1x1x512.size a
  shapeCasts_S1x512_S1x1x512 : S1x512.ShapeCasts S1x1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  reduces_S512x512_S512_2 : S512x512.Reduces [1] S512
  shapeCasts_S512_S512x1 : S512.ShapeCasts S512x1
  transposes_S512x1_p1_0_S1x512 : S512x1.Transposes [1, 0] S1x512
  reduces_S1x512_S1 : S1x512.Reduces [1] S1
  shapeCasts_S1_S1x1 : S1.ShapeCasts S1x1
  broadcasts_S1x1_S1x512 : S1x1.Broadcasts S1x512
  shapeCasts_S32x1x512_S32x512 : S32x1x512.ShapeCasts S32x512
  shapeCasts_S32x1x2048_S32x2048x1 : S32x1x2048.ShapeCasts S32x2048x1
  dot_S32x512_S512x512_S32x512_1_0_0_1_n_n_wf : DotDims.WF S32x512 S512x512 S32x512 [1] [0] [0] [1] [] []
  dot_S1x512_S512x512_S1x512_1_0_0_1_n_n_wf : DotDims.WF S1x512 S512x512 S1x512 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S32x2048x512.size a
  hwx0_0 : ∀ i : grid0.Coords, EltTy.bits .f32 = 32 ∨ (Rect.block (s := S32x2048x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S32x1x2048.size a
  hwx0_1 : ∀ i : grid0.Coords, EltTy.bits .f32 = 32 ∨ (Rect.block (s := S32x1x2048) S1x1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S32x1x512.size a
  hwx0_2 : ∀ i : grid0.Coords, EltTy.bits .f32 = 32 ∨ (Rect.block (s := S32x1x512) S1x1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512.size a ≤ S32x1x512.size a
  hwx0_6 : ∀ i : grid0.Coords, EltTy.bits .f32 = 32 ∨ (Rect.block (s := S32x1x512) S1x1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x2048.size a ≤ S32x1x2048.size a
  hwx0_7 : ∀ i : grid0.Coords, EltTy.bits .f32 = 32 ∨ (Rect.block (s := S32x1x2048) S1x1x2048.size (cc0_transform_7 i) (hinb0_7 i)).WholeWords (EltTy.packing .f32)

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12_0) S1x1x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_1) S1x1x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x2048x512 : Shape := ⟨3, ![32, 2048, 512]⟩
abbrev S32x512 : Shape := ⟨2, ![32, 512]⟩
abbrev S32x2048 : Shape := ⟨2, ![32, 2048]⟩
abbrev S1536x512 : Shape := ⟨2, ![1536, 512]⟩
abbrev S512x1 : Shape := ⟨2, ![512, 1]⟩
abbrev S1x512 : Shape := ⟨2, ![1, 512]⟩
abbrev S_ : Shape := ⟨0, ![]⟩
abbrev S32x2048x1 : Shape := ⟨3, ![32, 2048, 1]⟩
abbrev S32x1x512 : Shape := ⟨3, ![32, 1, 512]⟩
abbrev S32x2048x1536 : Shape := ⟨3, ![32, 2048, 1536]⟩
abbrev S1x1x512 : Shape := ⟨3, ![1, 1, 512]⟩
abbrev S32x1 : Shape := ⟨2, ![32, 1]⟩
abbrev S32x1x1 : Shape := ⟨3, ![32, 1, 1]⟩

abbrev nBuf : Space → Nat
  | .hbm => 41
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32x512, .f32⟩
  | .hbm, ⟨2, _⟩ => ⟨S32x2048, .i32⟩
  | .hbm, ⟨3, _⟩ => ⟨S1536x512, .f32⟩
  | .hbm, ⟨4, _⟩ => ⟨S512x1, .f32⟩
  | .hbm, ⟨5, _⟩ => ⟨S1x512, .f32⟩
  | .hbm, ⟨6, _⟩ => ⟨S32x2048, .f32⟩
  | .hbm, ⟨7, _⟩ => ⟨S_, .f32⟩
  | .hbm, ⟨8, _⟩ => ⟨S32x2048, .f32⟩
  | .hbm, ⟨9, _⟩ => ⟨S32x2048, .i1⟩
  | .hbm, ⟨10, _⟩ => ⟨S32x2048, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S32x2048x512, .f32⟩
  | .hbm, ⟨16, _⟩ => ⟨S32x2048x512, .f32⟩
  | .hbm, ⟨17, _⟩ => ⟨S_, .f32⟩
  | .hbm, ⟨18, _⟩ => ⟨S32x512, .f32⟩
  | .hbm, ⟨19, _⟩ => ⟨S32x1x512, .f32⟩
  | .hbm, ⟨20, _⟩ => ⟨S32x2048x512, .f32⟩
  | .hbm, ⟨21, _⟩ => ⟨S32x1x512, .f32⟩
  | .hbm, ⟨22, _⟩ => ⟨S32x2048x512, .f32⟩
  | .hbm, ⟨23, _⟩ => ⟨S32x2048x1536, .f32⟩
  | .hbm, ⟨24, _⟩ => ⟨S32x2048x512, .f32⟩
  | .hbm, ⟨25, _⟩ => ⟨S1x1x512, .f32⟩
  | .hbm, ⟨26, _⟩ => ⟨S32x2048x512, .f32⟩
  | .hbm, ⟨27, _⟩ => ⟨S32x2048x512, .f32⟩
  | .hbm, ⟨28, _⟩ => ⟨S32x2048x512, .f32⟩
  | .hbm, ⟨29, _⟩ => ⟨S32x2048x1, .f32⟩
  | .hbm, ⟨30, _⟩ => ⟨S32x2048x1, .f32⟩
  | .hbm, ⟨31, _⟩ => ⟨S32x2048x1, .f32⟩
  | .hbm, ⟨32, _⟩ => ⟨S32x2048x1, .f32⟩
  | .hbm, ⟨33, _⟩ => ⟨S_, .f32⟩
  | .hbm, ⟨34, _⟩ => ⟨S32x1, .f32⟩
  | .hbm, ⟨35, _⟩ => ⟨S32x1x1, .f32⟩
  | .hbm, ⟨36, _⟩ => ⟨S_, .f32⟩
  | .hbm, ⟨37, _⟩ => ⟨S32x1x1, .f32⟩
  | .hbm, ⟨38, _⟩ => ⟨S32x1x1, .f32⟩
  | .hbm, ⟨39, _⟩ => ⟨S32x2048x1, .f32⟩
  | .hbm, ⟨40, _⟩ => ⟨S32x2048x1, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S_S32x2048x1 : S_.BroadcastsInDim S32x2048x1 (![] : Fin 0 → Fin S32x2048x1.rank)
  bcast_S32x2048x1_S32x2048x512_0_1_2 : S32x2048x1.BroadcastsInDim S32x2048x512 (![0, 1, 2] : Fin 3 → Fin S32x2048x512.rank)
  reducesTo_S32x2048x512_S32x512_d1 : S32x2048x512.ReducesTo [1] S32x512
  h_S_ : 0 < S_.numel
  bcast_S32x512_S32x1x512_0_2 : S32x512.BroadcastsInDim S32x1x512 (![0, 2] : Fin 2 → Fin S32x1x512.rank)
  bcast_S32x1x512_S32x2048x512_0_1_2 : S32x1x512.BroadcastsInDim S32x2048x512 (![0, 1, 2] : Fin 3 → Fin S32x2048x512.rank)
  concatenates_S32x2048x512_S32x2048x512_S32x2048x512_S32x2048x1536_d2 : Shape.Concatenates [S32x2048x512, S32x2048x512, S32x2048x512] S32x2048x1536 2
  bcast_S1x512_S1x1x512_1_2 : S1x512.BroadcastsInDim S1x1x512 (![1, 2] : Fin 2 → Fin S1x1x512.rank)
  bcast_S1x1x512_S32x2048x512_0_1_2 : S1x1x512.BroadcastsInDim S32x2048x512 (![0, 1, 2] : Fin 3 → Fin S32x2048x512.rank)
  reducesTo_S32x2048x1_S32x1_d1 : S32x2048x1.ReducesTo [1] S32x1
  bcast_S32x1_S32x1x1_0_2 : S32x1.BroadcastsInDim S32x1x1 (![0, 2] : Fin 2 → Fin S32x1x1.rank)
  bcast_S_S32x1x1 : S_.BroadcastsInDim S32x1x1 (![] : Fin 0 → Fin S32x1x1.rank)
  bcast_S32x1x1_S32x2048x1_0_1_2 : S32x1x1.BroadcastsInDim S32x2048x1 (![0, 1, 2] : Fin 3 → Fin S32x2048x1.rank)
  dot_S32x2048x1536_S1536x512_S32x2048x512_2_0_01_1_n_n_wf : DotDims.WF S32x2048x1536 S1536x512 S32x2048x512 [2] [0] [0, 1] [1] [] []
  dot_S32x2048x512_S512x1_S32x2048x1_2_0_01_1_n_n_wf : DotDims.WF S32x2048x512 S512x1 S32x2048x1 [2] [0] [0, 1] [1] [] []

variable [Facts₀]

def dot_S32x2048x1536_S1536x512_S32x2048x512_2_0_01_1_n_n : DotDims S32x2048x1536 S1536x512 S32x2048x512 where
  lhsContracting := [2]
  rhsContracting := [0]
  lhsNonContracting := [0, 1]
  rhsNonContracting := [1]
  lhsBatch := []
  rhsBatch := []
  wf := dot_S32x2048x1536_S1536x512_S32x2048x512_2_0_01_1_n_n_wf
def dot_S32x2048x512_S512x1_S32x2048x1_2_0_01_1_n_n : DotDims S32x2048x512 S512x1 S32x2048x1 where
  lhsContracting := [2]
  rhsContracting := [0]
  lhsNonContracting := [0, 1]
  rhsNonContracting := [1]
  lhsBatch := []
  rhsBatch := []
  wf := dot_S32x2048x512_S512x1_S32x2048x1_2_0_01_1_n_n_wf

class Facts : Prop extends Facts₀ where

variable [Facts]
-- ==== Proof.LibNary3.lean ====
/-
  A host operation with THREE operands given as a literal family of references — a three-piece
  `stablehlo.concatenate`, written `nary ![x, a, b] y f` — read at its result buffer.

  The general result lemma for a family of operands leaves each operand's contents under a binder,
  `f (fun k => F ↑(![x, a, b] k))`, where the reference `![x, a, b] k` is not a literal, so no
  later rewriting reaches the operands' own contents. When the function is given by its three
  arguments, `f u = g (u 0) (u 1) (u 2)`, the result is `g` of the three operands' contents, each read at
  its own reference: the family agrees with the three contents at the positions `0, 1, 2`, which is all
  of `Fin 3`. The library states the analogue for a family of four.
-/
import Idealize.ShloMosaic.Lib.StableHlo.Run

noncomputable section

namespace Cert.Lib.Nary3

open Idealize.ShloMosaic Idealize.ShloMosaic.StableHlo Idealize.SL.Sem

variable {τ : Topo} {sig : RefSig} {Val : EltTy → Type}
variable {x a b y : Ref sig .tc}

/-- `nary` over a literal family of three references, at its result buffer: `f` of the three operands'
    contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same for a function given by its three arguments: no projection of a family is left in the result. -/
theorem nary3_result_of
    (f : ((k : Fin 3) → ((![x, a, b] : Fin 3 → Ref sig .tc) k).ty.Contents Val) → y.ty.Contents Val) (hxs hy)
    (F : Valuation τ sig Val)
    (g : x.ty.Contents Val → a.ty.Contents Val → b.ty.Contents Val → y.ty.Contents Val)
    (hg : ∀ u, f u = g (u 0) (u 1) (u 2)) :
    (nary (τ := τ) ![x, a, b] y f hxs hy).result F (Proc.devRef .tc y)
      = g (F (Proc.devRef .tc x)) (F (Proc.devRef .tc a)) (F (Proc.devRef .tc b)) := by
  rw [nary_result, hg]
  rfl

end Cert.Lib.Nary3

end
-- ==== Proof.Spec.lean ====
/-
  What both programs compute, as functions of the argument arrays over the extended reals.

  For one batch row, with `X` the row's `2048 × 512` activations, `M` its mask read as numbers, `Bh` the
  row's share `h · W_h + b` of the hidden layer, `Wp`, `Wx` the first two `512 × 512` blocks of the weight
  matrix and `U` the scoring vector:
    pool d   = max over the 2048 positions r of  X r d + pen (M r)       (pen = -10⁶ where the mask is 0, else 0)
    pre r d  = Σ_k X r k · Wx k d  +  (Σ_k pool k · Wp k d  +  Bh d)
    score r  = Σ_d tanh (pre r d) · U d
    en r     = exp (score r) · M r
    out r    = en r / ((0 + Σ_r en r) + ε)
  The two results are `pool` (per batch row and feature) and `out` (per batch row and position).
-/
import Idealize.ShloMosaic.PureOps.Ideal
import Idealize.ShloMosaic.Lib.ValueIdx

noncomputable section

open scoped BigOperators

namespace Cert.Attn

open Idealize.ShloMosaic Idealize.ShloMosaic.ValueIdx

/-- The penalty added at a masked-out position: the float `-10⁶`. -/
def cNeg : EReal := Ideal.ofBits .f32 0xC9742400#32
/-- The softmax denominator's `ε`: the float nearest `10⁻⁷`. -/
def cEps : EReal := Ideal.ofBits .f32 0x33D6BF95#32

/-- `-10⁶` where the mask value is zero, `0` elsewhere. -/
def pen (μ : EReal) : EReal := Scalar.select (Ideal.cmp .oeq μ 0) cNeg 0

/-- Position `o + k` of a row of 2048, for an offset `o` that leaves room for 512 positions. -/
def sh (o : Nat) (ho : o + 512 ≤ 2048) (k : Fin 512) : Fin 2048 := ⟨o + k.val, by have := k.isLt; omega⟩
/-- Row `o + k` of the `1536`-row weight matrix, for an offset `o` that leaves room for 512 rows. -/
def wr (o : Nat) (ho : o + 512 ≤ 1536) (k : Fin 512) : Fin 1536 := ⟨o + k.val, by have := k.isLt; omega⟩

/-! ## One batch row -/

section Row

variable (X : Fin 2048 → Fin 512 → EReal) (M : Fin 2048 → EReal) (Bh : Fin 512 → EReal)
  (Wp Wx : Fin 512 → Fin 512 → EReal) (U : Fin 512 → EReal)

/-- The masked maximum over the row's positions, per feature. -/
def poolR (d : Fin 512) : EReal := (Finset.univ : Finset (Fin 2048)).fold max ⊥ fun r => X r d + pen (M r)

/-- The hidden layer before its `tanh`. -/
def preR (r : Fin 2048) (d : Fin 512) : EReal :=
  (∑ k : Fin 512, X r k * Wx k d) + ((∑ k : Fin 512, poolR X M k * Wp k d) + Bh d)

/-- The attention score of a position. -/
def scoreR (r : Fin 2048) : EReal := ∑ d : Fin 512, Ideal.tanh (preR X M Bh Wp Wx r d) * U d

/-- The masked, unnormalised weight of a position. -/
def enR (r : Fin 2048) : EReal := Ideal.exp (scoreR X M Bh Wp Wx U r) * M r

/-- The normaliser: the weights' sum (from zero) plus `ε`. -/
def denR : EReal := (0 + ∑ r : Fin 2048, enR X M Bh Wp Wx U r) + cEps

/-- The normalised weight of a position. -/
def outR (r : Fin 2048) : EReal := Ideal.div (enR X M Bh Wp Wx U r) (denR X M Bh Wp Wx U)

end Row

/-! ## The whole arrays -/

section Arrays

variable (x : FVec Ideal ⟨3, ![32, 2048, 512]⟩ .f32) (h : FVec Ideal ⟨2, ![32, 512]⟩ .f32)
  (mk : IVec ⟨2, ![32, 2048]⟩ 32) (W : FVec Ideal ⟨2, ![1536, 512]⟩ .f32)
  (u : FVec Ideal ⟨2, ![512, 1]⟩ .f32) (bb : FVec Ideal ⟨2, ![1, 512]⟩ .f32)

/-- Batch row `b` of the activations. -/
def Xb (b : Fin 32) : Fin 2048 → Fin 512 → EReal := fun r k => x (ix3 b r k)
/-- Batch row `b` of the mask, each integer read as the number it is. -/
def Mb (b : Fin 32) : Fin 2048 → EReal := fun r => (((mk (ix2 b r)).toInt : ℝ) : EReal)
/-- Batch row `b`'s share of the hidden layer that does not depend on the position: `h · W_h + b`. -/
def Bhb (b : Fin 32) : Fin 512 → EReal := fun d =>
  (∑ k : Fin 512, h (ix2 b k) * W (ix2 (wr 1024 (by decide) k) d)) + bb (ix2 (0 : Fin 1) d)
/-- The weight matrix's rows `0 … 511`: the block that meets the pooled vector. -/
def Wpf : Fin 512 → Fin 512 → EReal := fun k d => W (ix2 (wr 0 (by decide) k) d)
/-- The weight matrix's rows `512 … 1023`: the block that meets the activations. -/
def Wxf : Fin 512 → Fin 512 → EReal := fun k d => W (ix2 (wr 512 (by decide) k) d)
/-- The scoring vector. -/
def Uf : Fin 512 → EReal := fun d => u (ix2 d (0 : Fin 1))

/-- The first result: the masked maximum, per batch row and feature. -/
def G0 : FVec Ideal ⟨2, ![32, 512]⟩ .f32 := fun i =>
  poolR (Xb x ⟨(i 0).val, (i 0).isLt⟩) (Mb mk ⟨(i 0).val, (i 0).isLt⟩) ⟨(i 1).val, (i 1).isLt⟩

/-- The second result: the normalised attention weight, per batch row and position. -/
def G1 : FVec Ideal ⟨3, ![32, 2048, 1]⟩ .f32 := fun i =>
  outR (Xb x ⟨(i 0).val, (i 0).isLt⟩) (Mb mk ⟨(i 0).val, (i 0).isLt⟩) (Bhb h W bb ⟨(i 0).val, (i 0).isLt⟩)
    (Wpf W) (Wxf W) (Uf u) ⟨(i 1).val, (i 1).isLt⟩

end Arrays

end Cert.Attn

end
-- ==== Proof.Algebra.lean ====
/-
  The four laws that join the two programs' arrangements of one computation, over the extended reals:
  a maximum over 2048 positions taken 512 at a time from `⊥`; a sum over 2048 positions taken 512 at a
  time from `0`; a sum over the 1536 rows of the weight matrix as the sum over its three blocks of 512;
  and the masked-out penalty written as a product with the indicator. None needs finiteness: only
  that `max` and `+` are commutative and associative with `⊥` and `0` neutral, and `0 · c = 0`, `1 · c = c`.
-/
import proofs.«403877_j76055280878095_3_alg».proof.Proof.Spec
import Idealize.ShloMosaic.PureOps.Ideal.Laws
import Mathlib.Data.Finset.Fold
import Mathlib.Algebra.BigOperators.Fin

noncomputable section

open scoped BigOperators

namespace Cert.Attn

open Idealize.ShloMosaic

/-- The float `-∞` is the bottom of the extended reals. -/
theorem ofBits_negInf : Ideal.ofBits .f32 0xFF800000#32 = ⊥ := by
  simp [Ideal.ofBits, Ideal.ieee]

/-- The indicator of "the mask value is zero", as the number `0` or `1`, times `-10⁶`, is the penalty. -/
theorem indicator_mul_eq_pen (μ : EReal) :
    ((((Ideal.cmp .oeq μ 0).toNat : ℝ) : EReal)) * cNeg = pen μ := by
  unfold pen Scalar.select Ideal.cmp
  by_cases h : μ = 0
  · simp [h]
  · simp [h]

/-- Every position of a row of 2048 lies in exactly one of its four runs of 512. -/
private theorem sh_cover (r : Fin 2048) :
    (∃ k, r = sh 0 (by decide) k) ∨ (∃ k, r = sh 512 (by decide) k)
      ∨ (∃ k, r = sh 1024 (by decide) k) ∨ (∃ k, r = sh 1536 (by decide) k) := by
  obtain ⟨r, hr⟩ := r
  by_cases h1 : r < 512
  · exact .inl ⟨⟨r, h1⟩, Fin.ext (by simp [sh])⟩
  by_cases h2 : r < 1024
  · exact .inr (.inl ⟨⟨r - 512, by omega⟩, Fin.ext (by simp [sh]; omega)⟩)
  by_cases h3 : r < 1536
  · exact .inr (.inr (.inl ⟨⟨r - 1024, by omega⟩, Fin.ext (by simp [sh]; omega)⟩))
  · exact .inr (.inr (.inr ⟨⟨r - 1536, by omega⟩, Fin.ext (by simp [sh]; omega)⟩))

/-- A value of the family is below the maximum of the family. -/
private theorem le_fold_max_self {n : Nat} (g : Fin n → EReal) (k : Fin n) :
    g k ≤ (Finset.univ : Finset (Fin n)).fold max ⊥ g :=
  (Finset.le_fold_max _).mpr (.inr ⟨k, Finset.mem_univ _, le_rfl⟩)

/-- A sum over `m + n` terms is the sum of the first `m` plus the sum of the last `n`. -/
private theorem sum_fin_split {N : Nat} (m n : Nat) (h : m + n = N) (f : Fin N → EReal) :
    ∑ r : Fin N, f r
      = (∑ k : Fin m, f ⟨k.val, by have := k.isLt; omega⟩)
        + ∑ k : Fin n, f ⟨m + k.val, by have := k.isLt; omega⟩ := by
  subst h
  exact Fin.sum_univ_add f

/-- A maximum over 2048 positions is the maximum, from `⊥`, of the maxima over its four runs of 512. -/
theorem fold_max_chunks (f : Fin 2048 → EReal) :
    max (max (max (max ⊥
      ((Finset.univ : Finset (Fin 512)).fold max ⊥ fun k => f (sh 0 (by decide) k)))
      ((Finset.univ : Finset (Fin 512)).fold max ⊥ fun k => f (sh 512 (by decide) k)))
      ((Finset.univ : Finset (Fin 512)).fold max ⊥ fun k => f (sh 1024 (by decide) k)))
      ((Finset.univ : Finset (Fin 512)).fold max ⊥ fun k => f (sh 1536 (by decide) k))
    = (Finset.univ : Finset (Fin 2048)).fold max ⊥ f := by
  apply le_antisymm
  · -- each run's maximum is below the whole maximum, since each of its terms is a term of the whole
    have hrun : ∀ (o : Nat) (ho : o + 512 ≤ 2048),
        ((Finset.univ : Finset (Fin 512)).fold max ⊥ fun k => f (sh o ho k))
          ≤ (Finset.univ : Finset (Fin 2048)).fold max ⊥ f := fun o ho =>
      (Finset.fold_max_le _).mpr ⟨bot_le, fun k _ => le_fold_max_self f (sh o ho k)⟩
    exact max_le (max_le (max_le (max_le bot_le (hrun _ _)) (hrun _ _)) (hrun _ _)) (hrun _ _)
  · -- each term of the whole is a term of one of the four runs
    refine (Finset.fold_max_le _).mpr ⟨bot_le, fun r _ => ?_⟩
    rcases sh_cover r with ⟨k, rfl⟩ | ⟨k, rfl⟩ | ⟨k, rfl⟩ | ⟨k, rfl⟩
    · exact le_max_of_le_left (le_max_of_le_left (le_max_of_le_left (le_max_of_le_right
        (le_fold_max_self (fun k => f (sh 0 (by decide) k)) k))))
    · exact le_max_of_le_left (le_max_of_le_left (le_max_of_le_right
        (le_fold_max_self (fun k => f (sh 512 (by decide) k)) k)))
    · exact le_max_of_le_left (le_max_of_le_right
        (le_fold_max_self (fun k => f (sh 1024 (by decide) k)) k))
    · exact le_max_of_le_right (le_fold_max_self (fun k => f (sh 1536 (by decide) k)) k)

/-- A sum over 2048 positions, from `0`, is the sum of its four runs of 512 added one after the other. -/
theorem sum_chunks (f : Fin 2048 → EReal) :
    ((((0 + ∑ k : Fin 512, f (sh 0 (by decide) k)) + ∑ k : Fin 512, f (sh 512 (by decide) k))
      + ∑ k : Fin 512, f (sh 1024 (by decide) k)) + ∑ k : Fin 512, f (sh 1536 (by decide) k))
    = 0 + ∑ r : Fin 2048, f r := by
  simp only [zero_add]
  symm
  -- split off the last run, then the third, then the second
  refine (sum_fin_split 1536 512 (by norm_num) f).trans ?_
  refine congrArg₂ (· + ·) ?_ (Finset.sum_congr rfl fun k _ => congrArg f (Fin.ext (by simp [sh])))
  refine (sum_fin_split 1024 512 (by norm_num) _).trans ?_
  refine congrArg₂ (· + ·) ?_ (Finset.sum_congr rfl fun k _ => congrArg f (Fin.ext (by simp [sh])))
  refine (sum_fin_split 512 512 (by norm_num) _).trans ?_
  exact congrArg₂ (· + ·) (Finset.sum_congr rfl fun k _ => congrArg f (Fin.ext (by simp [sh])))
    (Finset.sum_congr rfl fun k _ => congrArg f (Fin.ext (by simp [sh])))

/-- A sum over the 1536 rows is the sum over rows `0 … 511`, `512 … 1023` and `1024 … 1535`. -/
theorem sum_rows (g : Fin 1536 → EReal) :
    ∑ k : Fin 1536, g k
      = ((∑ k : Fin 512, g (wr 0 (by decide) k)) + ∑ k : Fin 512, g (wr 512 (by decide) k))
        + ∑ k : Fin 512, g (wr 1024 (by decide) k) := by
  -- split off the last block, then the second
  refine (sum_fin_split 1024 512 (by norm_num) g).trans ?_
  refine congrArg₂ (· + ·) ?_ (Finset.sum_congr rfl fun k _ => congrArg g (Fin.ext (by simp [wr])))
  refine (sum_fin_split 512 512 (by norm_num) _).trans ?_
  exact congrArg₂ (· + ·) (Finset.sum_congr rfl fun k _ => congrArg g (Fin.ext (by simp [wr])))
    (Finset.sum_congr rfl fun k _ => congrArg g (Fin.ext (by simp [wr])))

end Cert.Attn

end
-- ==== Proof.RefValue.lean ====
/-
  The reference's two results, read one operation at a time, are the specification's two functions of the
  argument arrays: the masked maximum over positions, and the softmax over positions of the scores of the
  hidden layer `tanh ([pooled, x, h] · W + b)`. The reference multiplies the indicator of a zero mask by
  `-10⁶` where the specification selects; it contracts the concatenation `[pooled, x, h]` with the whole
  weight matrix where the specification adds the three blocks' products; both are the same numbers.
-/
import proofs.«403877_j76055280878095_3_alg».proof.Proof.RefRead
import proofs.«403877_j76055280878095_3_alg».proof.Proof.Algebra
import Idealize.ShloMosaic.Lib.Pipeline.Value
import Idealize.ShloMosaic.PureOps.Ideal.Laws

noncomputable section

open scoped BigOperators

namespace Cert.Attn.R

open Idealize.ShloMosaic Idealize.ShloMosaic.ValueIdx Cert.ReferenceIdeal Cert.ReferenceIdeal.Gen Cert.ReferenceIdeal.ReadP Cert.Attn

variable (x0 : (⟨S32x2048x512, .f32⟩ : BufTy).Contents (Elt Ideal)) (x1 : (⟨S32x512, .f32⟩ : BufTy).Contents (Elt Ideal))
  (x2 : (⟨S32x2048, .i32⟩ : BufTy).Contents (Elt Ideal)) (x3 : (⟨S1536x512, .f32⟩ : BufTy).Contents (Elt Ideal))
  (x4 : (⟨S512x1, .f32⟩ : BufTy).Contents (Elt Ideal)) (x5 : (⟨S1x512, .f32⟩ : BufTy).Contents (Elt Ideal))

/-! ## The masked maximum -/

/-- The penalty the reference adds at a position: the indicator of a zero mask times `-10⁶`, which is the
    specification's selection. -/
private theorem pen_apply (b : Fin 32) (r : Fin 2048) (d : Fin 512) :
    val_main_v7 (F := Ideal) x2 (ix3 b r d) = pen (Mb x2 b r) := by
  rw [val_main_v7_apply, val_main_v6_apply, val_main_v4_apply, val_main_v3_apply, val_main_v2_apply,
    val_main_v0_apply, val_main_v1_apply, val_main_cst_apply, val_main_v5_apply, val_main_cst_0_apply]
  have e : idx_main_v4 (idx_main_v7 (ix3 b r d)) = ix2 b r := by
    funext a
    match a with
    | ⟨0, _⟩ => rfl
    | ⟨1, _⟩ => rfl
  rw [e]
  refine Eq.trans ?_ (indicator_mul_eq_pen (Mb x2 b r))
  show ((((Ideal.cmp .oeq (Mb x2 b r) (Ideal.ofBits .f32 0x00000000#32)).toNat : ℝ) : EReal)) * cNeg = _
  rw [Ideal.ofBits_zero_f32]

/-- The value the reference takes the maximum of, at batch row `b`, position `r`, feature `d`. -/
private theorem masked_apply (b : Fin 32) (r : Fin 2048) (d : Fin 512) :
    val_main_v8 (F := Ideal) x0 x2 (ix3 b r d) = Xb x0 b r d + pen (Mb x2 b r) := by
  rw [val_main_v8_apply, pen_apply]
  rfl

/-- The reference's maximum over positions at batch row `b` and feature `d` is the specification's. -/
private theorem pool_apply (b : Fin 32) (d : Fin 512) :
    val_main_v9 (F := Ideal) x0 x2 (ix2 b d) = poolR (Xb x0 b) (Mb x2 b) d := by
  unfold val_main_v9
  have hR : S32x2048x512.Reduces [1] S32x512 := by decide
  rw [Host.reduce_eq_fold_single FloatOps.maximumf _ _ reducesTo_S32x2048x512_S32x512_d1 hR h_S_ (ix2 b d)]
  unfold poolR
  have h0 : val_main_cst_1 (F := Ideal) (Shape.Idx.first h_S_) = ⊥ := ofBits_negInf
  have hf : (val_main_v8 (F := Ideal) x0 x2 ∘ hR.lift (ix2 b d))
      = fun r : Fin 2048 => Xb x0 b r d + pen (Mb x2 b r) := by
    funext r
    show val_main_v8 (F := Ideal) x0 x2 (hR.lift (ix2 b d) r) = _
    have e : hR.lift (ix2 b d) r = ix3 b r d := by
      funext c
      apply Fin.ext
      rw [hR.lift_val]
      match c with
      | ⟨0, _⟩ => rfl
      | ⟨1, _⟩ => rfl
      | ⟨2, _⟩ => rfl
    rw [e]
    exact masked_apply x0 x2 b r d
  exact congrArg₂ (fun (init : EReal) (f : Fin 2048 → EReal) => (Finset.univ : Finset (Fin 2048)).fold max init f) h0 hf

/-- The reference's first result is the masked maximum. -/
theorem ref_pool : val_main_v9 (F := Ideal) x0 x2 = G0 x0 x2 := by
  funext i
  obtain ⟨b, d, rfl⟩ : ∃ (b : Fin 32) (d : Fin 512), i = ix2 b d := ⟨i 0, i 1, eq_ix2 i⟩
  exact pool_apply x0 x2 b d

/-! ## The concatenation `[pooled, x, h]`, one piece at a time -/

/-- Columns `0 … 511` of the concatenation hold the pooled vector, the same at every position. -/
private theorem cat_pool (b : Fin 32) (r : Fin 2048) (k : Fin 512) :
    val_main_v14 (F := Ideal) x0 x1 x2 (ix3 b r (wr 0 (by decide) k)) = poolR (Xb x0 b) (Mb x2 b) k := by
  have h1 : val_main_v14 (F := Ideal) x0 x1 x2 (ix3 b r (wr 0 (by decide) k))
      = val_main_v11 (F := Ideal) x0 x2 (ix3 b r k) := by
    unfold val_main_v14
    refine concatenate_apply_piece (2 : Fin S32x2048x1536.rank)
      [⟨S32x2048x512, val_main_v11 (F := Ideal) x0 x2⟩, ⟨S32x2048x512, x0⟩, ⟨S32x2048x512, val_main_v13 (F := Ideal) x1⟩]
      concatenates_S32x2048x512_S32x2048x512_S32x2048x512_S32x2048x1536_d2
      (ix3 b r (wr 0 (by decide) k)) 0 (by simp) S32x2048x512 (val_main_v11 (F := Ideal) x0 x2) rfl rfl 0 rfl (ix3 b r k) ?_ ?_
    · intro c hc
      match c with
      | ⟨0, _⟩ => rfl
      | ⟨1, _⟩ => rfl
      | ⟨2, _⟩ => exact absurd rfl hc
    · rfl
  rw [h1, val_main_v11_apply, val_main_v10_apply]
  have e : idx_main_v10 (idx_main_v11 (ix3 b r k)) = ix2 b k := by
    funext a
    match a with
    | ⟨0, _⟩ => rfl
    | ⟨1, _⟩ => rfl
  rw [e]
  exact pool_apply x0 x2 b k

/-- Columns `512 … 1023` hold the position's activations. -/
private theorem cat_x (b : Fin 32) (r : Fin 2048) (k : Fin 512) :
    val_main_v14 (F := Ideal) x0 x1 x2 (ix3 b r (wr 512 (by decide) k)) = Xb x0 b r k := by
  unfold val_main_v14
  refine concatenate_apply_piece (2 : Fin S32x2048x1536.rank)
      [⟨S32x2048x512, val_main_v11 (F := Ideal) x0 x2⟩, ⟨S32x2048x512, x0⟩, ⟨S32x2048x512, val_main_v13 (F := Ideal) x1⟩]
      concatenates_S32x2048x512_S32x2048x512_S32x2048x512_S32x2048x1536_d2
    (ix3 b r (wr 512 (by decide) k)) 1 (by simp) S32x2048x512 x0 rfl rfl 512 rfl (ix3 b r k) ?_ ?_
  · intro c hc
    match c with
    | ⟨0, _⟩ => rfl
    | ⟨1, _⟩ => rfl
    | ⟨2, _⟩ => exact absurd rfl hc
  · rfl

/-- Columns `1024 … 1535` hold the batch row's `h`, the same at every position. -/
private theorem cat_h (b : Fin 32) (r : Fin 2048) (k : Fin 512) :
    val_main_v14 (F := Ideal) x0 x1 x2 (ix3 b r (wr 1024 (by decide) k)) = x1 (ix2 b k) := by
  have h1 : val_main_v14 (F := Ideal) x0 x1 x2 (ix3 b r (wr 1024 (by decide) k))
      = val_main_v13 (F := Ideal) x1 (ix3 b r k) := by
    unfold val_main_v14
    refine concatenate_apply_piece (2 : Fin S32x2048x1536.rank)
      [⟨S32x2048x512, val_main_v11 (F := Ideal) x0 x2⟩, ⟨S32x2048x512, x0⟩, ⟨S32x2048x512, val_main_v13 (F := Ideal) x1⟩]
      concatenates_S32x2048x512_S32x2048x512_S32x2048x512_S32x2048x1536_d2
      (ix3 b r (wr 1024 (by decide) k)) 2 (by simp) S32x2048x512 (val_main_v13 (F := Ideal) x1) rfl rfl 1024 rfl (ix3 b r k) ?_ ?_
    · intro c hc
      match c with
      | ⟨0, _⟩ => rfl
      | ⟨1, _⟩ => rfl
      | ⟨2, _⟩ => exact absurd rfl hc
    · rfl
  rw [h1, val_main_v13_apply, val_main_v12_apply]
  refine congrArg x1 ?_
  funext a
  match a with
  | ⟨0, _⟩ => rfl
  | ⟨1, _⟩ => rfl

/-! ## The hidden layer, the score and the weight -/

/-- The contraction of the concatenation with the whole weight matrix is the sum of the three blocks' products. -/
private theorem prod_apply (b : Fin 32) (r : Fin 2048) (d : Fin 512) :
    val_main_v15 (F := Ideal) x0 x1 x2 x3 (ix3 b r d)
      = ((∑ k : Fin 512, poolR (Xb x0 b) (Mb x2 b) k * Wpf x3 k d) + ∑ k : Fin 512, Xb x0 b r k * Wxf x3 k d)
          + ∑ k : Fin 512, x1 (ix2 b k) * x3 (ix2 (wr 1024 (by decide) k) d) := by
  rw [val_main_v15_apply]
  refine (sum_rows _).trans ?_
  have el : ∀ q : Fin 1536, lidx_main_v15 (ix3 b r d) q = ix3 b r q := fun q => by
    funext a
    match a with
    | ⟨0, _⟩ => rfl
    | ⟨1, _⟩ => rfl
    | ⟨2, _⟩ => rfl
  have er : ∀ q : Fin 1536, ridx_main_v15 (ix3 b r d) q = ix2 q d := fun q => by
    funext a
    match a with
    | ⟨0, _⟩ => rfl
    | ⟨1, _⟩ => rfl
  refine congrArg₂ (· + ·) (congrArg₂ (· + ·) ?_ ?_) ?_
  · refine Finset.sum_congr rfl fun k _ => ?_
    rw [el, er, cat_pool]
    rfl
  · refine Finset.sum_congr rfl fun k _ => ?_
    rw [el, er, cat_x]
    rfl
  · refine Finset.sum_congr rfl fun k _ => ?_
    rw [el, er, cat_h]

/-- The bias row, broadcast over batch rows and positions. -/
private theorem bias_apply (b : Fin 32) (r : Fin 2048) (d : Fin 512) :
    val_main_v17 (F := Ideal) x5 (ix3 b r d) = x5 (ix2 (0 : Fin 1) d) := by
  rw [val_main_v17_apply, val_main_v16_apply]
  refine congrArg x5 ?_
  funext a
  match a with
  | ⟨0, _⟩ => rfl
  | ⟨1, _⟩ => rfl

/-- Four summands regrouped. -/
private theorem regroup (P X H c : EReal) : ((P + X) + H) + c = X + (P + (H + c)) := by
  rw [add_comm P X, add_assoc, add_assoc]

/-- The reference's hidden layer before its `tanh` is the specification's. -/
private theorem pre_apply (b : Fin 32) (r : Fin 2048) (d : Fin 512) :
    val_main_v18 (F := Ideal) x0 x1 x2 x3 x5 (ix3 b r d)
      = preR (Xb x0 b) (Mb x2 b) (Bhb x1 x3 x5 b) (Wpf x3) (Wxf x3) r d := by
  rw [val_main_v18_apply, prod_apply, bias_apply]
  exact regroup _ _ _ _

/-- The reference's score of a position is the specification's. -/
private theorem score_apply (b : Fin 32) (r : Fin 2048) (z : Fin 1) :
    val_main_v20 (F := Ideal) x0 x1 x2 x3 x4 x5 (ix3 b r z)
      = scoreR (Xb x0 b) (Mb x2 b) (Bhb x1 x3 x5 b) (Wpf x3) (Wxf x3) (Uf x4) r := by
  obtain rfl : z = 0 := Subsingleton.elim _ _
  rw [val_main_v20_apply]
  unfold scoreR
  refine Finset.sum_congr rfl fun k _ => ?_
  have el : lidx_main_v20 (ix3 b r (0 : Fin 1)) k = ix3 b r k := by
    funext a
    match a with
    | ⟨0, _⟩ => rfl
    | ⟨1, _⟩ => rfl
    | ⟨2, _⟩ => rfl
  have er : ridx_main_v20 (ix3 b r (0 : Fin 1)) k = ix2 k (0 : Fin 1) := by
    funext a
    match a with
    | ⟨0, _⟩ => rfl
    | ⟨1, _⟩ => rfl
  rw [el, er, val_main_v19_apply, pre_apply]
  rfl

/-- The reference's masked, unnormalised weight of a position is the specification's. -/
private theorem en_apply (b : Fin 32) (r : Fin 2048) (z : Fin 1) :
    val_main_v23 (F := Ideal) x0 x1 x2 x3 x4 x5 (ix3 b r z)
      = enR (Xb x0 b) (Mb x2 b) (Bhb x1 x3 x5 b) (Wpf x3) (Wxf x3) (Uf x4) r := by
  rw [val_main_v23_apply, val_main_v21_apply, score_apply, val_main_v22_apply, val_main_v0_apply]
  have e : idx_main_v22 (ix3 b r z) = ix2 b r := by
    funext a
    match a with
    | ⟨0, _⟩ => rfl
    | ⟨1, _⟩ => rfl
  rw [e]
  rfl

/-- The reference's normaliser is the specification's: the weights' sum from zero, plus `ε`. -/
private theorem den_apply (b : Fin 32) (r : Fin 2048) (z : Fin 1) :
    val_main_v28 (F := Ideal) x0 x1 x2 x3 x4 x5 (ix3 b r z)
      = denR (Xb x0 b) (Mb x2 b) (Bhb x1 x3 x5 b) (Wpf x3) (Wxf x3) (Uf x4) := by
  rw [val_main_v28_apply, val_main_v27_apply, val_main_v25_apply, val_main_v24_apply, val_main_v26_apply,
    val_main_cst_3_apply, val_main_cst_2_apply]
  unfold denR
  refine congrArg₂ (· + ·) (congrArg₂ (· + ·) Ideal.ofBits_zero_f32 (Finset.sum_congr rfl fun k _ => ?_)) rfl
  have e : idx_main_v24 (idx_main_v25 (idx_main_v28 (ix3 b r z))) k = ix3 b k (0 : Fin 1) := by
    funext a
    match a with
    | ⟨0, _⟩ => rfl
    | ⟨1, _⟩ => rfl
    | ⟨2, _⟩ => rfl
  rw [e]
  exact en_apply x0 x1 x2 x3 x4 x5 b k 0

/-- The reference's second result is the normalised attention weight. -/
theorem ref_out : val_main_v29 (F := Ideal) x0 x1 x2 x3 x4 x5 = G1 x0 x1 x2 x3 x4 x5 := by
  funext i
  obtain ⟨b, r, z, rfl⟩ : ∃ (b : Fin 32) (r : Fin 2048) (z : Fin 1), i = ix3 b r z := ⟨i 0, i 1, i 2, eq_ix3 i⟩
  rw [val_main_v29_apply, en_apply, den_apply]
  rfl

end Cert.Attn.R

end
-- ==== Proof.KTerms.lean ====
/-
  Names for the values the kernel body computes at one grid point, as terms over the point's six input
  blocks: `x0` the batch row's activations `[1, 2048, 512]`, `x1` its mask as floats `[1, 1, 2048]`, `x2`
  its position-independent share of the hidden layer `[1, 1, 512]`, `x3` and `x4` the two weight blocks
  `[512, 512]` and `x5` the scoring row `[1, 512]`. Each name abbreviates the body's own payload term, so it
  unfolds to exactly what the body's stores hold.
    tPOOL            the running maximum after the four runs of 512 positions
    tPP, tV70, tV72  pooled · Wp;  pooled · Wp + the hidden share;  the scoring row
    tE0 … tE3        the masked unnormalised weights of the four runs
    tD0, tD2, tDEN   the running sums of the weights and the normaliser
  and the blocks read as plain functions of coordinates (`bX`, `bM`, `bBh`, `bW`, `bU`).
-/
import proofs.«403877_j76055280878095_3_alg».proof.Proof.Gen.KernelIdeal.Frame
import proofs.«403877_j76055280878095_3_alg».proof.Proof.Spec

noncomputable section

namespace Cert.Attn.K

open Idealize.ShloMosaic Idealize.ShloMosaic.ValueIdx Cert.KernelIdeal Cert.KernelIdeal.Gen Cert.Attn

variable (x0 : Vec Ideal S1x2048x512 .f32) (x1 : Vec Ideal S1x1x2048 .f32) (x2 : Vec Ideal S1x1x512 .f32)
  (x3 x4 : Vec Ideal S512x512 .bf16) (x5 : Vec Ideal S1x512 .f32)

/-- The activations' block by position and feature. -/
abbrev bX : Fin 2048 → Fin 512 → EReal := fun r k => x0 (ix3 (0 : Fin 1) r k)
/-- The mask's block by position. -/
abbrev bM : Fin 2048 → EReal := fun r => x1 (ix3 (0 : Fin 1) (0 : Fin 1) r)
/-- The hidden share's block by feature. -/
abbrev bBh : Fin 512 → EReal := fun d => x2 (ix3 (0 : Fin 1) (0 : Fin 1) d)
/-- A weight block by row and column. -/
abbrev bW (w : Vec Ideal S512x512 .bf16) : Fin 512 → Fin 512 → EReal := fun k d => w (ix2 k d)
/-- The scoring row by feature. -/
abbrev bU : Fin 512 → EReal := fun d => x5 (ix2 (0 : Fin 1) d)

/-- The running maximum after all four runs. -/
abbrev tPOOL : FVec Ideal S1x512 .f32 := k0_pay3 (F := Ideal) (k0_pay1 (View.ld x0 r0_0) (View.ld x1 r0_1) (View.ld x0 r0_2) (View.ld x1 r0_3)) (k0_pay2 (View.ld x0 r0_4)) (View.ld x1 r0_5) (View.ld x0 r0_6) (View.ld x1 r0_7)
/-- The pooled vector times its weight block. -/
abbrev tPP : FVec Ideal S1x512 .f32 := k0_pay5 (F := Ideal) (k0_pay1 (View.ld x0 r0_0) (View.ld x1 r0_1) (View.ld x0 r0_2) (View.ld x1 r0_3)) (k0_pay2 (View.ld x0 r0_4)) (View.ld x1 r0_5) (View.ld x0 r0_6) (View.ld x1 r0_7) (View.ld x3 r0_9)
/-- … plus the hidden share: the part of the pre-activation common to all positions. -/
abbrev tV70 : FVec Ideal S1x512 .f32 := k0_pay6 (F := Ideal) (tPP x0 x1 x3) (View.ld x2 r0_8)
/-- The scoring row as the body holds it. -/
abbrev tV72 : FVec Ideal S1x512 .f32 := k0_pay7 (F := Ideal) (View.ld x5 r0_10)
/-- The masked unnormalised weights of positions `0 … 511`. -/
abbrev tE0 : FVec Ideal S1x512 .f32 :=
  k0_pay8 (F := Ideal) (tPP x0 x1 x3) (View.ld x2 r0_8) (View.ld x5 r0_10) (View.ld x0 r0_0) (View.ld x4 r0_9) (View.ld x1 r0_1)
/-- The scores of positions `512 … 1023`. -/
abbrev tS1 : FVec Ideal S512 .f32 :=
  k0_pay10 (F := Ideal) (tPP x0 x1 x3) (View.ld x2 r0_8) (View.ld x5 r0_10) (View.ld x0 r0_2) (View.ld x4 r0_9)
/-- The masked unnormalised weights of positions `512 … 1023`. -/
abbrev tE1 : FVec Ideal S1x512 .f32 := k0_pay11 (F := Ideal) (tS1 x0 x1 x2 x3 x4 x5) (View.ld x1 r0_3)
/-- The masked unnormalised weights of positions `1024 … 1535`. -/
abbrev tE2 : FVec Ideal S1x512 .f32 :=
  k0_pay12 (F := Ideal) (tV70 x0 x1 x2 x3) (tV72 x5) (View.ld x0 r0_4) (View.ld x4 r0_9) (View.ld x1 r0_5)
/-- The hidden layer (after `tanh`) of positions `1536 … 2047`. -/
abbrev tT3 : FVec Ideal S512x512 .f32 := k0_pay14 (F := Ideal) (tV70 x0 x1 x2 x3) (View.ld x0 r0_6) (View.ld x4 r0_9)
/-- The masked unnormalised weights of positions `1536 … 2047`. -/
abbrev tE3 : FVec Ideal S1x512 .f32 := k0_pay15 (F := Ideal) (tV72 x5) (tT3 x0 x1 x2 x3 x4) (View.ld x1 r0_7)
/-- The weights' sum after the first run (from zero). -/
abbrev tD0 : FVec Ideal S1x1 .f32 :=
  k0_pay9 (F := Ideal) (tPP x0 x1 x3) (View.ld x2 r0_8) (View.ld x5 r0_10) (View.ld x0 r0_0) (View.ld x4 r0_9) (View.ld x1 r0_1)
/-- The weights' sum after the third run. -/
abbrev tD2 : FVec Ideal S1x1 .f32 :=
  k0_pay13 (F := Ideal) (tV70 x0 x1 x2 x3) (tV72 x5) (tD0 x0 x1 x2 x3 x4 x5) (tS1 x0 x1 x2 x3 x4 x5) (View.ld x1 r0_3) (View.ld x0 r0_4) (View.ld x4 r0_9) (View.ld x1 r0_5)
/-- The normaliser: the weights' sum after the fourth run, plus `ε`. -/
abbrev tDEN : FVec Ideal S1x1 .f32 :=
  k0_pay16 (F := Ideal) (tV72 x5) (tD2 x0 x1 x2 x3 x4 x5) (tT3 x0 x1 x2 x3 x4) (View.ld x1 r0_7)

/-- The first output window's buffer is one store of the running maximum, re-laid to `[1, 1, 512]`. -/
theorem out0_6_eq_terms :
    out0_6 (F := Ideal) x0 x1 x2 x3 x4 x5
      = View.canon [⟨r0_8, shapeCast S1x1x512 (tPOOL x0 x1) shapeCasts_S1x512_S1x1x512⟩] := rfl

/-- The second output window's buffer is four stores, one per run of 512 positions, last first: each run's weights
    divided by the normaliser and re-laid to `[1, 1, 512]`. -/
theorem out0_7_eq_terms :
    out0_7 (F := Ideal) x0 x1 x2 x3 x4 x5
      = View.canon [
          ⟨r0_7, k0_pay20 (F := Ideal) (tV72 x5) (tD2 x0 x1 x2 x3 x4 x5) (tT3 x0 x1 x2 x3 x4) (View.ld x1 r0_7)⟩,
          ⟨r0_5, k0_pay19 (F := Ideal) (tV72 x5) (tE2 x0 x1 x2 x3 x4 x5) (tD2 x0 x1 x2 x3 x4 x5) (tT3 x0 x1 x2 x3 x4) (View.ld x1 r0_7)⟩,
          ⟨r0_3, k0_pay18 (F := Ideal) (tV72 x5) (tE1 x0 x1 x2 x3 x4 x5) (tD2 x0 x1 x2 x3 x4 x5) (tT3 x0 x1 x2 x3 x4) (View.ld x1 r0_7)⟩,
          ⟨r0_1, k0_pay17 (F := Ideal) (tV72 x5) (tE0 x0 x1 x2 x3 x4 x5) (tD2 x0 x1 x2 x3 x4 x5) (tT3 x0 x1 x2 x3 x4) (View.ld x1 r0_7)⟩] := rfl

end Cert.Attn.K

end
-- ==== Proof.KIn.lean ====
/-
  What the kernel's six input windows hold at grid point `t`, as functions of the argument arrays: the
  grid has one point per batch row, and the point's blocks are row `t` of the activations, of the mask
  read as floats, and of the hidden share `h · W_h + b` the host lines before the launch compute, with the
  two weight blocks (rows `0 … 511` and `512 … 1023` of the weight matrix) and the scoring vector laid as
  a row the same at every point.
-/
import proofs.«403877_j76055280878095_3_alg».proof.Proof.Gen.KernelIdeal.Frame
import proofs.«403877_j76055280878095_3_alg».proof.Proof.KTerms
import Idealize.ShloMosaic.Lib.Pipeline.Value
import Idealize.ShloMosaic.Lib.StableHlo.Run
import Idealize.ShloMosaic.PureOps.Ideal.Laws

noncomputable section

open scoped BigOperators

namespace Cert.Attn.KV

open Idealize.ShloMosaic Idealize.ShloMosaic.TcCoe Idealize.SL.Sem Idealize.ShloMosaic.ValueIdx
open Cert.KernelIdeal Cert.KernelIdeal.Gen Cert.Attn Cert.Attn.K

variable (m : (ℓ : Loc nD τ sig) → Buf (Elt Ideal) ℓ)

/-- The six argument arrays of core `c`, as launched. -/
abbrev a0 (c : Dev nD) : FVec Ideal S32x2048x512 .f32 := m ((c : Thread nD τ).loc main_arg0)
abbrev a1 (c : Dev nD) : FVec Ideal S32x512 .f32 := m ((c : Thread nD τ).loc main_arg1)
abbrev a2 (c : Dev nD) : IVec S32x2048 32 := m ((c : Thread nD τ).loc main_arg2)
abbrev a3 (c : Dev nD) : FVec Ideal S1536x512 .f32 := m ((c : Thread nD τ).loc main_arg3)
abbrev a4 (c : Dev nD) : FVec Ideal S512x1 .f32 := m ((c : Thread nD τ).loc main_arg4)
abbrev a5 (c : Dev nD) : FVec Ideal S1x512 .f32 := m ((c : Thread nD τ).loc main_arg5)

/-- The batch row a grid point works on: the grid has 32 points, one per row. -/
def tb (t : Fin cfg0.N) : Fin 32 := ⟨t.val, Nat.lt_of_lt_of_eq t.isLt N_0⟩

/-- Window 0's block index at point `t` is `(t, 0, 0)`. -/
private theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

/-- Window 0's block read at a coordinate is the staged array at the coordinate moved `t` rows down. -/
private theorem iblk0_apply (c : Dev nD) (t : Fin cfg0.N) (x : S1x2048x512.Idx) (k : S32x2048x512.Idx)
    (hk0 : (k 0).val = t.val + (x 0).val) (hk1 : (k 1).val = (x 1).val) (hk2 : (k 2).val = (x 2).val) :
    (iblk m c 0 t : Vec Ideal S1x2048x512 .f32) x = V m c main_arg0 k := by
  obtain ⟨h0, h1, h2⟩ := idx0 t
  unfold iblk
  rw [View.read_apply]
  show V m c main_arg0 _ = V m c main_arg0 _
  congr 1
  funext a
  apply Fin.ext
  match a with
  | ⟨0, _⟩ => show win0_0.index t (0 : Fin 3) * 1 + 1 * (x 0).val = (k 0).val; rw [h0, hk0]; omega
  | ⟨1, _⟩ => show win0_0.index t (1 : Fin 3) * 2048 + 1 * (x 1).val = (k 1).val; rw [h1, hk1]; omega
  | ⟨2, _⟩ => show win0_0.index t (2 : Fin 3) * 512 + 1 * (x 2).val = (k 2).val; rw [h2, hk2]; omega

/-- Window 0 at point `t`: row `t` of the activations. -/
theorem rowX (c : Dev nD) (t : Fin cfg0.N) : bX (iblk m c 0 t) = Xb (a0 m c) (tb t) := by
  funext r k
  show (iblk m c 0 t : Vec Ideal S1x2048x512 .f32) (ix3 (0 : Fin 1) r k) = a0 m c (ix3 (tb t) r k)
  refine (iblk0_apply m c t (ix3 (0 : Fin 1) r k) (ix3 (tb t) r k) ?_ ?_ ?_).trans (congrFun (V_main_arg0 m c) _)
  · show (tb t).val = t.val + 0; rfl
  · rfl
  · rfl

/-- Window 1's block index at point `t` is `(t, 0, 0)`. -/
private theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

/-- Window 1's block read at a coordinate is the staged array at the coordinate moved `t` rows down. -/
private theorem iblk1_apply (c : Dev nD) (t : Fin cfg0.N) (x : S1x1x2048.Idx) (k : S32x1x2048.Idx)
    (hk0 : (k 0).val = t.val + (x 0).val) (hk1 : (k 1).val = (x 1).val) (hk2 : (k 2).val = (x 2).val) :
    (iblk m c 1 t : Vec Ideal S1x1x2048 .f32) x = V m c main_v1 k := by
  obtain ⟨h0, h1, h2⟩ := idx1 t
  unfold iblk
  rw [View.read_apply]
  show V m c main_v1 _ = V m c main_v1 _
  congr 1
  funext a
  apply Fin.ext
  match a with
  | ⟨0, _⟩ => show win0_1.index t (0 : Fin 3) * 1 + 1 * (x 0).val = (k 0).val; rw [h0, hk0]; omega
  | ⟨1, _⟩ => show win0_1.index t (1 : Fin 3) * 1 + 1 * (x 1).val = (k 1).val; rw [h1, hk1]; omega
  | ⟨2, _⟩ => show win0_1.index t (2 : Fin 3) * 2048 + 1 * (x 2).val = (k 2).val; rw [h2, hk2]; omega

/-- The array window 1 stages: the integer mask with a unit axis put in, each integer converted to a float. -/
private theorem V_v1 (c : Dev nD) : (V m c main_v1 : S32x1x2048.Idx → EReal)
    = sitofp (F := Ideal) .f32 (broadcastInDim S32x1x2048 ![0, 2] bcast_S32x2048_S32x1x2048_0_2 (m ((c : Thread nD τ).loc main_arg2))) := by
  show StableHlo.after hostOps0 (fun b => m (c, b)) (Proc.devRef .tc main_v1) = _
  after_results <;> rfl

/-- Window 1 at point `t`: row `t` of the mask, each integer as the number it is. -/
theorem rowM (c : Dev nD) (t : Fin cfg0.N) : bM (iblk m c 1 t) = Mb (a2 m c) (tb t) := by
  funext r
  show (iblk m c 1 t : Vec Ideal S1x1x2048 .f32) (ix3 (0 : Fin 1) (0 : Fin 1) r) = (((a2 m c (ix2 (tb t) r)).toInt : ℝ) : EReal)
  refine (iblk1_apply m c t (ix3 (0 : Fin 1) (0 : Fin 1) r) (ix3 (tb t) (0 : Fin 1) r) ?_ rfl rfl).trans ?_
  · show (tb t).val = t.val + 0; rfl
  rw [V_v1, sitofp_apply]
  rw [broadcastInDim_apply _ bcast_S32x2048_S32x1x2048_0_2 _ _ (ix2 (tb t) r) (fun a => match a with
    | ⟨0, _⟩ => by show (tb t).val = if (32 : Nat) = 1 then 0 else (tb t).val; rw [if_neg (by decide)]
    | ⟨1, _⟩ => by show r.val = if (2048 : Nat) = 1 then 0 else r.val; rw [if_neg (by decide)])]
  rfl

/-- Window 2's block index at point `t` is `(t, 0, 0)`. -/
private theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

/-- Window 2's block read at a coordinate is the staged array at the coordinate moved `t` rows down. -/
private theorem iblk2_apply (c : Dev nD) (t : Fin cfg0.N) (x : S1x1x512.Idx) (k : S32x1x512.Idx)
    (hk0 : (k 0).val = t.val + (x 0).val) (hk1 : (k 1).val = (x 1).val) (hk2 : (k 2).val = (x 2).val) :
    (iblk m c 2 t : Vec Ideal S1x1x512 .f32) x = V m c main_v11 k := by
  obtain ⟨h0, h1, h2⟩ := idx2 t
  unfold iblk
  rw [View.read_apply]
  show V m c main_v11 _ = V m c main_v11 _
  congr 1
  funext a
  apply Fin.ext
  match a with
  | ⟨0, _⟩ => show win0_2.index t (0 : Fin 3) * 1 + 1 * (x 0).val = (k 0).val; rw [h0, hk0]; omega
  | ⟨1, _⟩ => show win0_2.index t (1 : Fin 3) * 1 + 1 * (x 1).val = (k 1).val; rw [h1, hk1]; omega
  | ⟨2, _⟩ => show win0_2.index t (2 : Fin 3) * 512 + 1 * (x 2).val = (k 2).val; rw [h2, hk2]; omega

/-- The array window 2 stages: the hidden state times rows `1024 … 1535` of the weight matrix, plus the bias row
    repeated down the batch, with a unit axis put in. -/
private theorem V_v11 (c : Dev nD) : (V m c main_v11 : S32x1x512.Idx → EReal)
    = broadcastInDim S32x1x512 ![0, 2] bcast_S32x512_S32x1x512_0_2
        (addf (F := Ideal)
          (Host.dotGeneral (F := Ideal) (φ₁ := .f32) (φ₂ := .f32) dot_S32x512_S512x512_S32x512_1_0_0_1_n_n none (a1 m c)
            (extractStridedSlice S512x512 ![1024, 0] (a3 m c) slices_S1536x512_S512x512_1024_0))
          (broadcastInDim S32x512 ![0, 1] bcast_S1x512_S32x512_0_1 (a5 m c))) := by
  show StableHlo.after hostOps0 (fun b => m (c, b)) (Proc.devRef .tc main_v11) = _
  after_results <;> rfl

/-- The operand indices of the `[32,512] × [512,512]` product at an output index and a contraction index, axis by axis. -/
private theorem lhsBh_0 (i : S32x512.Idx) (q : dot_S32x512_S512x512_S32x512_1_0_0_1_n_n.contr.Idx) : (dot_S32x512_S512x512_S32x512_1_0_0_1_n_n.lhsIdx i q 0).val = (i 0).val := by
  unfold DotDims.lhsIdx
  rw [dif_neg (show ¬(0 : Fin S32x512.rank) ∈ dot_S32x512_S512x512_S32x512_1_0_0_1_n_n.lhsBatch by decide), dif_pos (show (0 : Fin S32x512.rank) ∈ dot_S32x512_S512x512_S32x512_1_0_0_1_n_n.lhsNonContracting by decide)]
  rfl
private theorem lhsBh_1 (i : S32x512.Idx) (q : dot_S32x512_S512x512_S32x512_1_0_0_1_n_n.contr.Idx) : (dot_S32x512_S512x512_S32x512_1_0_0_1_n_n.lhsIdx i q 1).val = (q ⟨0, by decide⟩).val :=
  dot_S32x512_S512x512_S32x512_1_0_0_1_n_n.lhsIdx_val_of_single rfl i q
private theorem rhsBh_0 (i : S32x512.Idx) (q : dot_S32x512_S512x512_S32x512_1_0_0_1_n_n.contr.Idx) : (dot_S32x512_S512x512_S32x512_1_0_0_1_n_n.rhsIdx i q 0).val = (q ⟨0, by decide⟩).val :=
  dot_S32x512_S512x512_S32x512_1_0_0_1_n_n.rhsIdx_val_of_single rfl i q
private theorem rhsBh_1 (i : S32x512.Idx) (q : dot_S32x512_S512x512_S32x512_1_0_0_1_n_n.contr.Idx) : (dot_S32x512_S512x512_S32x512_1_0_0_1_n_n.rhsIdx i q 1).val = (i 1).val := by
  unfold DotDims.rhsIdx
  rw [dif_neg (show ¬(1 : Fin S512x512.rank) ∈ dot_S32x512_S512x512_S32x512_1_0_0_1_n_n.rhsBatch by decide), dif_pos (show (1 : Fin S512x512.rank) ∈ dot_S32x512_S512x512_S32x512_1_0_0_1_n_n.rhsNonContracting by decide)]
  rfl

/-- The `[32,512] × [512,512]` product read at row `b` and column `d` is the sum over the 512 contracted positions. -/
private theorem dotBh_apply (l : FVec Ideal S32x512 .f32) (r : FVec Ideal S512x512 .f32) (b : Fin 32) (d : Fin 512) :
    Host.dotGeneral (F := Ideal) dot_S32x512_S512x512_S32x512_1_0_0_1_n_n none l r (ix2 b d) = ∑ k : Fin 512, l (ix2 b k) * r (ix2 k d) := by
  simp only [Host.dotGeneral]
  rw [Ideal.dotGeneral_apply, ← Equiv.sum_comp (ValueIdx.contrEquiv1 dot_S32x512_S512x512_S32x512_1_0_0_1_n_n 512 rfl rfl).symm]
  refine Finset.sum_congr rfl fun k _ => ?_
  have hk := ValueIdx.contrEquiv1_symm_val dot_S32x512_S512x512_S32x512_1_0_0_1_n_n 512 rfl rfl k
  have el : dot_S32x512_S512x512_S32x512_1_0_0_1_n_n.lhsIdx (ix2 b d) ((ValueIdx.contrEquiv1 dot_S32x512_S512x512_S32x512_1_0_0_1_n_n 512 rfl rfl).symm k) = ix2 b k := funext fun a => Fin.ext (by
    match a with
    | ⟨0, _⟩ => exact lhsBh_0 _ _
    | ⟨1, _⟩ => exact (lhsBh_1 _ _).trans hk)
  have er : dot_S32x512_S512x512_S32x512_1_0_0_1_n_n.rhsIdx (ix2 b d) ((ValueIdx.contrEquiv1 dot_S32x512_S512x512_S32x512_1_0_0_1_n_n 512 rfl rfl).symm k) = ix2 k d := funext fun a => Fin.ext (by
    match a with
    | ⟨0, _⟩ => exact (rhsBh_0 _ _).trans hk
    | ⟨1, _⟩ => exact rhsBh_1 _ _)
  rw [el, er]

/-- Window 2 at point `t`: row `t` of `h · W_h + b`. -/
theorem rowBh (c : Dev nD) (t : Fin cfg0.N) : bBh (iblk m c 2 t) = Bhb (a1 m c) (a3 m c) (a5 m c) (tb t) := by
  funext d
  show (iblk m c 2 t : Vec Ideal S1x1x512 .f32) (ix3 (0 : Fin 1) (0 : Fin 1) d)
    = (∑ k : Fin 512, a1 m c (ix2 (tb t) k) * a3 m c (ix2 (wr 1024 (by decide) k) d)) + a5 m c (ix2 (0 : Fin 1) d)
  refine (iblk2_apply m c t (ix3 (0 : Fin 1) (0 : Fin 1) d) (ix3 (tb t) (0 : Fin 1) d) ?_ rfl rfl).trans ?_
  · show (tb t).val = t.val + 0; rfl
  rw [V_v11]
  rw [broadcastInDim_apply _ bcast_S32x512_S32x1x512_0_2 _ _ (ix2 (tb t) d) (fun a => match a with
    | ⟨0, _⟩ => by show (tb t).val = if (32 : Nat) = 1 then 0 else (tb t).val; rw [if_neg (by decide)]
    | ⟨1, _⟩ => by show d.val = if (512 : Nat) = 1 then 0 else d.val; rw [if_neg (by decide)])]
  rw [addf_apply, dotBh_apply]
  refine congrArg₂ (· + ·) (Finset.sum_congr rfl fun k _ => congrArg (a1 m c (ix2 (tb t) k) * ·) ?_) ?_
  · exact extractStridedSlice_apply _ _ slices_S1536x512_S512x512_1024_0 (ix2 k d) (ix2 (wr 1024 (by decide) k) d) (fun a => match a with
      | ⟨0, _⟩ => by show (wr 1024 (by decide) k).val = 1024 + k.val; rfl
      | ⟨1, _⟩ => by show d.val = 0 + d.val; omega)
  · exact broadcastInDim_apply _ bcast_S1x512_S32x512_0_1 _ (ix2 (tb t) d) (ix2 (0 : Fin 1) d) (fun a => match a with
      | ⟨0, _⟩ => by show 0 = if (1 : Nat) = 1 then 0 else (tb t).val; rw [if_pos rfl]
      | ⟨1, _⟩ => by show d.val = if (512 : Nat) = 1 then 0 else d.val; rw [if_neg (by decide)])

/-- Windows 3, 4 and 5 have one block: its index is `(0, 0)` at every point. -/
private theorem idx3 : ∀ t : Fin cfg0.N, win0_3.index t (0 : Fin 2) = 0 ∧ win0_3.index t (1 : Fin 2) = 0 :=
  (by decide +kernel : ∀ t : Fin grid0.N, _)
private theorem idx4 : ∀ t : Fin cfg0.N, win0_4.index t (0 : Fin 2) = 0 ∧ win0_4.index t (1 : Fin 2) = 0 :=
  (by decide +kernel : ∀ t : Fin grid0.N, _)
private theorem idx5 : ∀ t : Fin cfg0.N, win0_5.index t (0 : Fin 2) = 0 ∧ win0_5.index t (1 : Fin 2) = 0 :=
  (by decide +kernel : ∀ t : Fin grid0.N, _)

/-- Window 3's block is the whole staged array. -/
private theorem iblk3_apply (c : Dev nD) (t : Fin cfg0.N) (x : S512x512.Idx) :
    (iblk m c 3 t : Vec Ideal S512x512 .bf16) x = V m c main_v3 x := by
  obtain ⟨h0, h1⟩ := idx3 t
  unfold iblk
  rw [View.read_apply]
  show V m c main_v3 _ = V m c main_v3 _
  congr 1
  funext a
  apply Fin.ext
  match a with
  | ⟨0, _⟩ => show win0_3.index t (0 : Fin 2) * 512 + 1 * (x 0).val = (x 0).val; rw [h0]; omega
  | ⟨1, _⟩ => show win0_3.index t (1 : Fin 2) * 512 + 1 * (x 1).val = (x 1).val; rw [h1]; omega

/-- Window 4's block is the whole staged array. -/
private theorem iblk4_apply (c : Dev nD) (t : Fin cfg0.N) (x : S512x512.Idx) :
    (iblk m c 4 t : Vec Ideal S512x512 .bf16) x = V m c main_v5 x := by
  obtain ⟨h0, h1⟩ := idx4 t
  unfold iblk
  rw [View.read_apply]
  show V m c main_v5 _ = V m c main_v5 _
  congr 1
  funext a
  apply Fin.ext
  match a with
  | ⟨0, _⟩ => show win0_4.index t (0 : Fin 2) * 512 + 1 * (x 0).val = (x 0).val; rw [h0]; omega
  | ⟨1, _⟩ => show win0_4.index t (1 : Fin 2) * 512 + 1 * (x 1).val = (x 1).val; rw [h1]; omega

/-- Window 5's block is the whole staged array. -/
private theorem iblk5_apply (c : Dev nD) (t : Fin cfg0.N) (x : S1x512.Idx) :
    (iblk m c 5 t : Vec Ideal S1x512 .f32) x = V m c main_v7 x := by
  obtain ⟨h0, h1⟩ := idx5 t
  unfold iblk
  rw [View.read_apply]
  show V m c main_v7 _ = V m c main_v7 _
  congr 1
  funext a
  apply Fin.ext
  match a with
  | ⟨0, _⟩ => show win0_5.index t (0 : Fin 2) * 1 + 1 * (x 0).val = (x 0).val; rw [h0]; omega
  | ⟨1, _⟩ => show win0_5.index t (1 : Fin 2) * 512 + 1 * (x 1).val = (x 1).val; rw [h1]; omega

/-- The array window 3 stages: rows `0 … 511` of the weight matrix, narrowed to the short float format. -/
private theorem V_v3 (c : Dev nD) : (V m c main_v3 : S512x512.Idx → EReal)
    = truncf (F := Ideal) .bf16 (extractStridedSlice S512x512 ![0, 0] (m ((c : Thread nD τ).loc main_arg3)) slices_S1536x512_S512x512_0_0) bitsLt_bf16_f32 := by
  show StableHlo.after hostOps0 (fun b => m (c, b)) (Proc.devRef .tc main_v3) = _
  after_results <;> rfl

/-- The array window 4 stages: rows `512 … 1023` of the weight matrix, narrowed to the short float format. -/
private theorem V_v5 (c : Dev nD) : (V m c main_v5 : S512x512.Idx → EReal)
    = truncf (F := Ideal) .bf16 (extractStridedSlice S512x512 ![512, 0] (m ((c : Thread nD τ).loc main_arg3)) slices_S1536x512_S512x512_512_0) bitsLt_bf16_f32 := by
  show StableHlo.after hostOps0 (fun b => m (c, b)) (Proc.devRef .tc main_v5) = _
  after_results <;> rfl

/-- The array window 5 stages: the scoring vector transposed into a row. -/
private theorem V_v7 (c : Dev nD) : (V m c main_v7 : S1x512.Idx → EReal)
    = transpose S1x512 [1, 0] (m ((c : Thread nD τ).loc main_arg4)) transposes_S512x1_S1x512_1_0 := by
  show StableHlo.after hostOps0 (fun b => m (c, b)) (Proc.devRef .tc main_v7) = _
  after_results <;> rfl

/-- Window 3 at every point: rows `0 … 511` of the weight matrix. -/
theorem rowWp (c : Dev nD) (t : Fin cfg0.N) : bW (iblk m c 3 t) = Wpf (a3 m c) := by
  funext k d
  show (iblk m c 3 t : Vec Ideal S512x512 .bf16) (ix2 k d) = a3 m c (ix2 (wr 0 (by decide) k) d)
  rw [iblk3_apply, V_v3, truncf_apply]
  exact extractStridedSlice_apply _ _ slices_S1536x512_S512x512_0_0 (ix2 k d) (ix2 (wr 0 (by decide) k) d) (fun a => match a with
    | ⟨0, _⟩ => by show (wr 0 (by decide) k).val = 0 + k.val; rfl
    | ⟨1, _⟩ => by show d.val = 0 + d.val; omega)

/-- Window 4 at every point: rows `512 … 1023` of the weight matrix. -/
theorem rowWx (c : Dev nD) (t : Fin cfg0.N) : bW (iblk m c 4 t) = Wxf (a3 m c) := by
  funext k d
  show (iblk m c 4 t : Vec Ideal S512x512 .bf16) (ix2 k d) = a3 m c (ix2 (wr 512 (by decide) k) d)
  rw [iblk4_apply, V_v5, truncf_apply]
  exact extractStridedSlice_apply _ _ slices_S1536x512_S512x512_512_0 (ix2 k d) (ix2 (wr 512 (by decide) k) d) (fun a => match a with
    | ⟨0, _⟩ => by show (wr 512 (by decide) k).val = 512 + k.val; rfl
    | ⟨1, _⟩ => by show d.val = 0 + d.val; omega)

/-- Window 5 at every point: the scoring vector as a row. -/
theorem rowU (c : Dev nD) (t : Fin cfg0.N) : bU (iblk m c 5 t) = Uf (a4 m c) := by
  funext d
  show (iblk m c 5 t : Vec Ideal S1x512 .f32) (ix2 (0 : Fin 1) d) = a4 m c (ix2 d (0 : Fin 1))
  rw [iblk5_apply, V_v7]
  exact transpose_apply _ _ transposes_S512x1_S1x512_1_0 (ix2 (0 : Fin 1) d) (ix2 d (0 : Fin 1)) (fun b => match b with
    | ⟨0, _⟩ => rfl
    | ⟨1, _⟩ => rfl)

end Cert.Attn.KV

end
-- ==== Proof.KPool.lean ====
/-
  The kernel's first result at one grid point: the running maximum over the four runs of 512 positions,
  started from the named `-∞`, is the masked maximum over all 2048 positions of the batch row.
-/
import proofs.«403877_j76055280878095_3_alg».proof.Proof.KTerms
import proofs.«403877_j76055280878095_3_alg».proof.Proof.Algebra
import Idealize.ShloMosaic.Lib.Pipeline.Value
import Idealize.ShloMosaic.Lib.ValueLayout
import Idealize.ShloMosaic.PureOps.Ideal.Laws

noncomputable section

open scoped BigOperators

namespace Cert.Attn.K

open Idealize.ShloMosaic Idealize.ShloMosaic.ValueIdx Cert.KernelIdeal Cert.KernelIdeal.Gen Cert.Attn

variable (x0 : Vec Ideal S1x2048x512 .f32) (x1 : Vec Ideal S1x1x2048 .f32) (x2 : Vec Ideal S1x1x512 .f32)
  (x3 x4 : Vec Ideal S512x512 .bf16) (x5 : Vec Ideal S1x512 .f32)

/-- The masked-out penalty column the body builds from a run's mask slice. -/
private abbrev penCol (mc : Vec Ideal S1x1x512 .f32) : FVec Ideal S512x1 .f32 :=
  select (cmpf (F := Ideal) .oeq (transpose S512x1 [1, 0] (shapeCast S1x512 mc shapeCasts_S1x1x512_S1x512 : FVec Ideal S1x512 .f32) transposes_S1x512_p1_0_S512x1)
      (broadcast S512x1 (Scalar.ofBits .f32 0x00000000#32)))
    (broadcast S512x1 (Scalar.ofBits .f32 0xC9742400#32)) (broadcast S512x1 (Scalar.ofBits .f32 0x00000000#32))

/-- The penalty column at position k is the penalty of the mask value there: the two zero constants are `0`,
    and the comparison with zero selects `-10⁶` or `0`. -/
private theorem penCol_apply (mc : Vec Ideal S1x1x512 .f32) (k : Fin 512) :
    penCol mc (ix2 k (0 : Fin 1)) = pen (mc (ix3 (0 : Fin 1) (0 : Fin 1) k)) := by
  have e1 : transpose S512x1 [1, 0] (shapeCast S1x512 mc shapeCasts_S1x1x512_S1x512 : FVec Ideal S1x512 .f32)
      transposes_S1x512_p1_0_S512x1 (ix2 k (0 : Fin 1)) = mc (ix3 (0 : Fin 1) (0 : Fin 1) k) := by
    refine (transpose_apply _ _ _ _ (ix2 (0 : Fin 1) k) ?_).trans ?_
    · intro b; fin_cases b <;> rfl
    · refine shapeCast_apply _ _ _ (ix3 (0 : Fin 1) (0 : Fin 1) k) ?_
      rw [Shape.rowMajor_val_three, Shape.rowMajor_val_two]
      show ((0 : Fin 1).val * 1 + (0 : Fin 1).val) * 512 + k.val = (0 : Fin 1).val * 512 + k.val
      simp
  show Scalar.select (Ideal.cmp .oeq (transpose S512x1 [1, 0] (shapeCast S1x512 mc shapeCasts_S1x1x512_S1x512 : FVec Ideal S1x512 .f32)
      transposes_S1x512_p1_0_S512x1 (ix2 k (0 : Fin 1))) (Ideal.ofBits .f32 0x00000000#32)) (Ideal.ofBits .f32 0xC9742400#32) (Ideal.ofBits .f32 0x00000000#32) = _
  rw [e1, Ideal.ofBits_zero_f32]
  rfl

/-- The run's penalised activations at the reduction's inserted index (k, d). -/
private theorem run_term (xs : FVec Ideal S512x512 .f32) (mc : Vec Ideal S1x1x512 .f32) (d k : Fin 512)
    (h : S512x512.Reduces [0] S512) :
    addf xs (broadcastTo S512x512 (penCol mc) broadcasts_S512x1_S512x512) (h.lift (ix1 d) k)
      = xs (ix2 k d) + pen (mc (ix3 (0 : Fin 1) (0 : Fin 1) k)) := by
  have hl : h.lift (ix1 d) k = ix2 k d := by
    funext a; apply Fin.ext
    match a with
    | ⟨0, _⟩ => rfl
    | ⟨1, _⟩ => rfl
  rw [hl, addf_apply]
  refine congrArg (xs (ix2 k d) + ·) ?_
  refine (broadcastTo_apply _ _ _ (ix2 k (0 : Fin 1)) ?_).trans (penCol_apply mc k)
  intro a
  match a with
  | ⟨0, _⟩ => rfl
  | ⟨1, _⟩ => rfl

/-- One run's reduction at feature d: the fold of `max` from `-∞` over the run's 512 positions. -/
private theorem run_apply (xs : FVec Ideal S512x512 .f32) (mc : Vec Ideal S1x1x512 .f32) (d : Fin 512)
    (h : S512x512.Reduces [0] S512) (hφ : FKind.Formats .f32)
    (hacc : (0xFF800000#32 : BitVec 32) = FKind.maximumf.neutral .f32 hφ) :
    multiReduction (F := Ideal) .maximumf [0] S512 (addf xs (broadcastTo S512x512 (penCol mc) broadcasts_S512x1_S512x512))
        0xFF800000#32 h hφ hacc (ix1 d)
      = (Finset.univ : Finset (Fin 512)).fold max ⊥ fun k => xs (ix2 k d) + pen (mc (ix3 (0 : Fin 1) (0 : Fin 1) k)) := by
  refine (Ideal.multiReduction_maximumf_single _ _ h hφ hacc (ix1 d)).trans ?_
  rw [Ideal.ofBits_def, ofBits_negInf]
  exact congrArg (Finset.fold max ⊥ · Finset.univ) (funext fun k => run_term xs mc d k h)

/-- The masked maximum over one run of 512 positions, at feature d. -/
private abbrev runMax (xs : FVec Ideal S512x512 .f32) (mc : Vec Ideal S1x1x512 .f32) (d : Fin 512) : EReal :=
  (Finset.univ : Finset (Fin 512)).fold max ⊥ fun k => xs (ix2 k d) + pen (mc (ix3 (0 : Fin 1) (0 : Fin 1) k))

/-- The same after the re-laying of the reduced vector to [1, 512]. -/
private theorem runCast_apply (xs : FVec Ideal S512x512 .f32) (mc : Vec Ideal S1x1x512 .f32) (d : Fin 512)
    (h : S512x512.Reduces [0] S512) (hφ : FKind.Formats .f32)
    (hacc : (0xFF800000#32 : BitVec 32) = FKind.maximumf.neutral .f32 hφ) :
    shapeCast S1x512 (multiReduction (F := Ideal) .maximumf [0] S512
        (addf xs (broadcastTo S512x512 (penCol mc) broadcasts_S512x1_S512x512)) 0xFF800000#32 h hφ hacc)
      shapeCasts_S512_S1x512 (ix2 (0 : Fin 1) d) = runMax xs mc d := by
  refine (shapeCast_apply _ _ _ (ix1 d) ?_).trans (run_apply xs mc d h hφ hacc)
  rw [Shape.rowMajor_val_one, Shape.rowMajor_val_two]
  show d.val = (0 : Fin 1).val * 512 + d.val
  simp

/-- The running maximum after the first two runs, from the named `-∞`. -/
private theorem pay1_apply (v1 : Vec Ideal S1x512x512 .f32) (v3 : Vec Ideal S1x1x512 .f32) (v16 : Vec Ideal S1x512x512 .f32)
    (v18 : Vec Ideal S1x1x512 .f32) (d : Fin 512) :
    k0_pay1 (F := Ideal) v1 v3 v16 v18 (ix2 (0 : Fin 1) d)
      = max (max ⊥ (runMax (shapeCast S512x512 v1 shapeCasts_S1x512x512_S512x512) v3 d))
          (runMax (shapeCast S512x512 v16 shapeCasts_S1x512x512_S512x512) v18 d) :=
  congrArg₂ max (congrArg₂ max (IdealRules.named_const.ideal_named_scalar Cert.KernelIdeal.κ "neg_big" _ ⊥ rfl)
    (runCast_apply _ v3 d _ _ _)) (runCast_apply _ v18 d _ _ _)

/-- The running maximum after two further runs, from a previous value. -/
private theorem pay3_apply (v30 : FVec Ideal S1x512 .f32) (v32 : FVec Ideal S512x512 .f32) (v33 : Vec Ideal S1x1x512 .f32)
    (v46 : Vec Ideal S1x512x512 .f32) (v48 : Vec Ideal S1x1x512 .f32) (d : Fin 512) :
    k0_pay3 (F := Ideal) v30 v32 v33 v46 v48 (ix2 (0 : Fin 1) d)
      = max (max (v30 (ix2 (0 : Fin 1) d)) (runMax v32 v33 d))
          (runMax (shapeCast S512x512 v46 shapeCasts_S1x512x512_S512x512) v48 d) :=
  congrArg₂ max (congrArg₂ max rfl (runCast_apply v32 v33 d _ _ _)) (runCast_apply _ v48 d _ _ _)

/-- A run's block of the activations, re-laid to [512, 512], read at (k, d): the row's activation at position o + k. -/
private theorem ldX_apply (o : Nat) (ho : o + 512 ≤ 2048)
    (inb : ∀ a, (![0, o, 0] : Fin 3 → Nat) a + S1x512x512.size a ≤ S1x2048x512.size a) (k d : Fin 512) :
    shapeCast S512x512 (View.ld x0 (Rect.unit (s := S1x2048x512) ![0, o, 0] S1x512x512.size inb))
        shapeCasts_S1x512x512_S512x512 (ix2 k d) = bX x0 (sh o ho k) d := by
  refine (shapeCast_apply _ _ _ (ix3 (0 : Fin 1) k d) ?_).trans ?_
  · rw [Shape.rowMajor_val_three, Shape.rowMajor_val_two]
    show ((0 : Fin 1).val * 512 + k.val) * 512 + d.val = k.val * 512 + d.val
    simp
  · show x0 ((Rect.unit (s := S1x2048x512) ![0, o, 0] S1x512x512.size inb).emb (ix3 (0 : Fin 1) k d)) = x0 (ix3 (0 : Fin 1) (sh o ho k) d)
    refine congrArg x0 (funext fun a => Fin.ext ?_)
    rw [Rect.emb_apply, Rect.off_unit, Rect.stride_unit]
    match a with
    | ⟨0, _⟩ => rfl
    | ⟨1, _⟩ => show o + 1 * k.val = o + k.val; omega
    | ⟨2, _⟩ => show 0 + 1 * d.val = d.val; omega

/-- A run's slice of the mask read at k: the row's mask at position o + k. -/
private theorem ldM_apply (o : Nat) (ho : o + 512 ≤ 2048)
    (inb : ∀ a, (![0, 0, o] : Fin 3 → Nat) a + S1x1x512.size a ≤ S1x1x2048.size a) (k : Fin 512) :
    View.ld x1 (Rect.unit (s := S1x1x2048) ![0, 0, o] S1x1x512.size inb) (ix3 (0 : Fin 1) (0 : Fin 1) k) = bM x1 (sh o ho k) := by
  show x1 ((Rect.unit (s := S1x1x2048) ![0, 0, o] S1x1x512.size inb).emb (ix3 (0 : Fin 1) (0 : Fin 1) k)) = x1 (ix3 (0 : Fin 1) (0 : Fin 1) (sh o ho k))
  refine congrArg x1 (funext fun a => Fin.ext ?_)
  rw [Rect.emb_apply, Rect.off_unit, Rect.stride_unit]
  match a with
  | ⟨0, _⟩ => rfl
  | ⟨1, _⟩ => rfl
  | ⟨2, _⟩ => show o + 1 * k.val = o + k.val; omega

/-- One run's masked maximum, read off the row's blocks: the fold over the run's 512 positions o + k. -/
private theorem runMax_ld (o : Nat) (ho : o + 512 ≤ 2048)
    (inbX : ∀ a, (![0, o, 0] : Fin 3 → Nat) a + S1x512x512.size a ≤ S1x2048x512.size a)
    (inbM : ∀ a, (![0, 0, o] : Fin 3 → Nat) a + S1x1x512.size a ≤ S1x1x2048.size a) (d : Fin 512) :
    runMax (shapeCast S512x512 (View.ld x0 (Rect.unit (s := S1x2048x512) ![0, o, 0] S1x512x512.size inbX))
        shapeCasts_S1x512x512_S512x512) (View.ld x1 (Rect.unit (s := S1x1x2048) ![0, 0, o] S1x1x512.size inbM)) d
      = (Finset.univ : Finset (Fin 512)).fold max ⊥ fun k => (fun r => bX x0 r d + pen (bM x1 r)) (sh o ho k) := by
  refine congrArg (Finset.fold max ⊥ · Finset.univ) (funext fun k => ?_)
  exact congrArg₂ (· + ·) (ldX_apply x0 o ho inbX k d) (congrArg pen (ldM_apply x1 o ho inbM k))

/-- The running maximum after the four runs, at feature `d`: the masked maximum over the row's 2048 positions. -/
theorem tPOOL_apply (d : Fin 512) : tPOOL x0 x1 (ix2 (0 : Fin 1) d) = poolR (bX x0) (bM x1) d := by
  refine (pay3_apply _ _ _ _ _ d).trans ?_
  refine (congrArg₂ max (congrArg₂ max (pay1_apply _ _ _ _ d) rfl) rfl).trans ?_
  refine (congrArg₂ max (congrArg₂ max (congrArg₂ max (congrArg₂ max rfl
    (runMax_ld x0 x1 0 (by decide) _ _ d)) (runMax_ld x0 x1 512 (by decide) _ _ d))
    (runMax_ld x0 x1 1024 (by decide) _ _ d)) (runMax_ld x0 x1 1536 (by decide) _ _ d)).trans ?_
  exact fold_max_chunks (fun r => bX x0 r d + pen (bM x1 r))

/-- What the body leaves in the first output window's buffer: the masked maximum, per feature. -/
theorem out0_6_eq :
    out0_6 (F := Ideal) x0 x1 x2 x3 x4 x5
      = fun y : S1x1x512.Idx => poolR (bX x0) (bM x1) ⟨(y 2).val, (y 2).isLt⟩ := by
  refine (out0_6_eq_terms x0 x1 x2 x3 x4 x5).trans ?_
  refine (View.canon_unit_zero (funext fun a => by fin_cases a <;> rfl) _ _).trans ?_
  funext y
  obtain ⟨a, b, d, rfl⟩ : ∃ a b d, y = ix3 a b d := ⟨y 0, y 1, y 2, eq_ix3 y⟩
  refine (shapeCast_apply _ _ _ (ix2 (0 : Fin 1) d) ?_).trans (tPOOL_apply x0 x1 d)
  rw [Shape.rowMajor_val_two, Shape.rowMajor_val_three]
  show (0 : Fin 1).val * 512 + d.val = (a.val * 1 + b.val) * 512 + d.val
  have ha := a.isLt
  have hb := b.isLt
  simp only [Fin.val_zero]
  omega

end Cert.Attn.K

end
-- ==== Proof.KScore.lean ====
/-
  The kernel's hidden layer, scores and unnormalised weights at one grid point, run by run: for each of the
  four runs of 512 positions the body's value at position `k` of the run is the row's masked weight
  `exp (score) · mask` at position `offset + k`, with the pre-activation
  `Σ_k x · Wx + (Σ_k pooled · Wp + hidden share)`.
-/
import proofs.«403877_j76055280878095_3_alg».proof.Proof.KPool

noncomputable section

open scoped BigOperators

namespace Cert.Attn.K

open Idealize.ShloMosaic Idealize.ShloMosaic.ValueIdx Cert.KernelIdeal Cert.KernelIdeal.Gen Cert.Attn

/-! ## The two contractions read at an index

A `[512, 512] · [512, 512]` product (a run's activations times the weight block) and a `[1, 512] · [512, 512]`
product (the pooled vector times its weight block), each from a zero accumulator: element `(k, d)` is
`Σ_j A (k, j) · B (j, d)`. The contraction index has one axis, so the sum is re-indexed by that axis's coordinate. -/

/-- The dimension numbers of the `[512, 512] · [512, 512]` product. -/
private abbrev DB := dot_S512x512_S512x512_S512x512_1_0_0_1_n_n

private theorem lhsB_0 (i : S512x512.Idx) (q : DB.contr.Idx) : (DB.lhsIdx i q 0).val = (i 0).val := by
  unfold DotDims.lhsIdx
  rw [dif_neg (show ¬(0 : Fin S512x512.rank) ∈ DB.lhsBatch by decide), dif_pos (show (0 : Fin S512x512.rank) ∈ DB.lhsNonContracting by decide)]
  rfl
private theorem lhsB_1 (i : S512x512.Idx) (q : DB.contr.Idx) : (DB.lhsIdx i q 1).val = (q ⟨0, by decide⟩).val :=
  DB.lhsIdx_val_of_single rfl i q
private theorem rhsB_0 (i : S512x512.Idx) (q : DB.contr.Idx) : (DB.rhsIdx i q 0).val = (q ⟨0, by decide⟩).val :=
  DB.rhsIdx_val_of_single rfl i q
private theorem rhsB_1 (i : S512x512.Idx) (q : DB.contr.Idx) : (DB.rhsIdx i q 1).val = (i 1).val := by
  unfold DotDims.rhsIdx
  rw [dif_neg (show ¬(1 : Fin S512x512.rank) ∈ DB.rhsBatch by decide), dif_pos (show (1 : Fin S512x512.rank) ∈ DB.rhsNonContracting by decide)]
  rfl

/-- The `[512, 512] · [512, 512]` product from zero at `(k, d)`. -/
private theorem mmB_apply {φ₁ φ₂ : FTy} (A : FVec Ideal S512x512 φ₁) (B : FVec Ideal S512x512 φ₂) (k d : Fin 512) :
    matmul DB none A B (constant S512x512 .f32 0x00000000#32) (ix2 k d) = ∑ j : Fin 512, A (ix2 k j) * B (ix2 j d) := by
  refine (Ideal.matmul_constant_zero_apply DB none A B (ix2 k d)).trans ?_
  rw [← Equiv.sum_comp (contrEquiv1 DB 512 rfl rfl).symm]
  refine Finset.sum_congr rfl fun j _ => ?_
  have hk := contrEquiv1_symm_val DB 512 rfl rfl j
  have el : DB.lhsIdx (ix2 k d) ((contrEquiv1 DB 512 rfl rfl).symm j) = ix2 k j := funext fun a => Fin.ext (by
    match a with
    | ⟨0, _⟩ => exact lhsB_0 _ _
    | ⟨1, _⟩ => exact (lhsB_1 _ _).trans hk)
  have er : DB.rhsIdx (ix2 k d) ((contrEquiv1 DB 512 rfl rfl).symm j) = ix2 j d := funext fun a => Fin.ext (by
    match a with
    | ⟨0, _⟩ => exact (rhsB_0 _ _).trans hk
    | ⟨1, _⟩ => exact rhsB_1 _ _)
  rw [el, er]

/-- The dimension numbers of the `[1, 512] · [512, 512]` product. -/
private abbrev DS := dot_S1x512_S512x512_S1x512_1_0_0_1_n_n

private theorem lhsS_0 (i : S1x512.Idx) (q : DS.contr.Idx) : (DS.lhsIdx i q 0).val = (i 0).val := by
  unfold DotDims.lhsIdx
  rw [dif_neg (show ¬(0 : Fin S1x512.rank) ∈ DS.lhsBatch by decide), dif_pos (show (0 : Fin S1x512.rank) ∈ DS.lhsNonContracting by decide)]
  rfl
private theorem lhsS_1 (i : S1x512.Idx) (q : DS.contr.Idx) : (DS.lhsIdx i q 1).val = (q ⟨0, by decide⟩).val :=
  DS.lhsIdx_val_of_single rfl i q
private theorem rhsS_0 (i : S1x512.Idx) (q : DS.contr.Idx) : (DS.rhsIdx i q 0).val = (q ⟨0, by decide⟩).val :=
  DS.rhsIdx_val_of_single rfl i q
private theorem rhsS_1 (i : S1x512.Idx) (q : DS.contr.Idx) : (DS.rhsIdx i q 1).val = (i 1).val := by
  unfold DotDims.rhsIdx
  rw [dif_neg (show ¬(1 : Fin S512x512.rank) ∈ DS.rhsBatch by decide), dif_pos (show (1 : Fin S512x512.rank) ∈ DS.rhsNonContracting by decide)]
  rfl

/-- The `[1, 512] · [512, 512]` product from zero at `(0, d)`. -/
private theorem mmS_apply {φ₁ φ₂ : FTy} (A : FVec Ideal S1x512 φ₁) (B : FVec Ideal S512x512 φ₂) (d : Fin 512) :
    matmul DS none A B (constant S1x512 .f32 0x00000000#32) (ix2 (0 : Fin 1) d) = ∑ j : Fin 512, A (ix2 (0 : Fin 1) j) * B (ix2 j d) := by
  refine (Ideal.matmul_constant_zero_apply DS none A B (ix2 (0 : Fin 1) d)).trans ?_
  rw [← Equiv.sum_comp (contrEquiv1 DS 512 rfl rfl).symm]
  refine Finset.sum_congr rfl fun j _ => ?_
  have hk := contrEquiv1_symm_val DS 512 rfl rfl j
  have el : DS.lhsIdx (ix2 (0 : Fin 1) d) ((contrEquiv1 DS 512 rfl rfl).symm j) = ix2 (0 : Fin 1) j := funext fun a => Fin.ext (by
    match a with
    | ⟨0, _⟩ => exact lhsS_0 _ _
    | ⟨1, _⟩ => exact (lhsS_1 _ _).trans hk)
  have er : DS.rhsIdx (ix2 (0 : Fin 1) d) ((contrEquiv1 DS 512 rfl rfl).symm j) = ix2 j d := funext fun a => Fin.ext (by
    match a with
    | ⟨0, _⟩ => exact (rhsS_0 _ _).trans hk
    | ⟨1, _⟩ => exact rhsS_1 _ _)
  rw [el, er]

/-! ## One run of 512 positions, over variables

For a run's activations `xc`, the weight block `w4`, the position-independent part `v70` of the pre-activation, the
scoring row `v72` and the run's mask `mc`: the hidden layer, the score and the masked weight at an index. -/

/-- The hidden layer at position `k` and feature `d`: `tanh (Σ_j xc (k, j) · w4 (j, d) + v70 d)`. -/
private theorem hidden_apply (xc : Vec Ideal S1x512x512 .f32) (w4 : Vec Ideal S512x512 .bf16) (v70 : FVec Ideal S1x512 .f32) (k d : Fin 512) :
    tanh (addf (matmul DB none (truncf .bf16 (shapeCast S512x512 xc shapeCasts_S1x512x512_S512x512 : FVec Ideal S512x512 .f32) bitsLt_bf16_f32)
        (shapeCast S512x512 w4 shapeCasts_S512x512_S512x512 : FVec Ideal S512x512 .bf16) (constant S512x512 .f32 0x00000000#32))
      (broadcastTo S512x512 v70 broadcasts_S1x512_S512x512)) (ix2 k d)
      = Ideal.tanh ((∑ j : Fin 512, xc (ix3 (0 : Fin 1) k j) * w4 (ix2 j d)) + v70 (ix2 (0 : Fin 1) d)) := by
  show Ideal.tanh (_ + _) = _
  congr 1
  refine congrArg₂ (· + ·) ?_ ?_
  · refine (mmB_apply _ _ k d).trans ?_
    refine Finset.sum_congr rfl fun j _ => ?_
    refine congrArg₂ (· * ·) ?_ ?_
    · show shapeCast S512x512 xc shapeCasts_S1x512x512_S512x512 (ix2 k j) = _
      refine shapeCast_apply xc _ (ix2 k j) (ix3 (0 : Fin 1) k j) ?_
      rw [Shape.rowMajor_val_three, Shape.rowMajor_val_two]
      show ((0 : Nat) * 512 + k.val) * 512 + j.val = k.val * 512 + j.val
      omega
    · rw [shapeCast_self]
  · refine broadcastTo_apply v70 _ (ix2 k d) (ix2 (0 : Fin 1) d) (fun a => ?_)
    match a with
    | ⟨0, _⟩ => show 0 = if (1 : Nat) = 1 then 0 else _; rw [if_pos rfl]
    | ⟨1, _⟩ => show d.val = if (512 : Nat) = 1 then 0 else d.val; rw [if_neg (by decide)]

/-- The index over position `k` with feature `d` inserted on the summed axis is `(k, d)`. -/
private theorem lift_row (k d : Fin 512) : reduces_S512x512_S512_2.lift (ix1 k) d = ix2 k d := by
  funext a
  match a with
  | ⟨0, _⟩ => exact Fin.ext rfl
  | ⟨1, _⟩ => exact Fin.ext rfl

/-- The sum over the features of `H (k, d) · v72 d`: the score of position `k`. -/
private theorem score_apply (H : FVec Ideal S512x512 .f32) (v72 : FVec Ideal S1x512 .f32)
    (hφ : FKind.Formats FTy.f32) (hacc : (0x00000000#32 : BitVec FTy.f32.bits) = FKind.add.neutral FTy.f32 hφ) (k : Fin 512) :
    multiReduction .add [1] S512 (mulf H (broadcastTo S512x512 v72 broadcasts_S1x512_S512x512)) 0x00000000#32
        reduces_S512x512_S512_2 hφ hacc (ix1 k)
      = ∑ d : Fin 512, H (ix2 k d) * v72 (ix2 (0 : Fin 1) d) := by
  refine (Ideal.multiReduction_add_single _ _ reduces_S512x512_S512_2 hφ hacc (ix1 k)).trans ?_
  show ∑ d : Fin 512, _ = _
  refine Finset.sum_congr rfl fun d _ => ?_
  rw [lift_row]
  show H (ix2 k d) * _ = _
  refine congrArg (H (ix2 k d) * ·) ?_
  refine broadcastTo_apply v72 _ (ix2 k d) (ix2 (0 : Fin 1) d) (fun a => ?_)
  match a with
  | ⟨0, _⟩ => show 0 = if (1 : Nat) = 1 then 0 else _; rw [if_pos rfl]
  | ⟨1, _⟩ => show d.val = if (512 : Nat) = 1 then 0 else d.val; rw [if_neg (by decide)]

/-- The masked weight of position `k`: `exp (score k) · mask k`, the score column turned into a row. -/
private theorem en_apply (sc : FVec Ideal S512 .f32) (mc : Vec Ideal S1x1x512 .f32) (k : Fin 512) :
    mulf (exp (transpose S1x512 [1, 0] (shapeCast S512x1 sc shapeCasts_S512_S512x1) transposes_S512x1_p1_0_S1x512))
        (shapeCast S1x512 mc shapeCasts_S1x1x512_S1x512 : FVec Ideal S1x512 .f32) (ix2 (0 : Fin 1) k)
      = Ideal.exp (sc (ix1 k)) * mc (ix3 (0 : Fin 1) (0 : Fin 1) k) := by
  show Ideal.exp _ * _ = _
  refine congrArg₂ (fun a b => Ideal.exp a * b) ?_ ?_
  · refine (transpose_apply [1, 0] _ transposes_S512x1_p1_0_S1x512 (ix2 (0 : Fin 1) k) (ix2 k (0 : Fin 1)) (fun b => ?_)).trans ?_
    · match b with
      | ⟨0, _⟩ => rfl
      | ⟨1, _⟩ => rfl
    · refine shapeCast_apply sc _ (ix2 k (0 : Fin 1)) (ix1 k) ?_
      rw [Shape.rowMajor_val_one, Shape.rowMajor_val_two]
      show k.val = k.val * 1 + 0
      omega
  · refine shapeCast_apply mc _ (ix2 (0 : Fin 1) k) (ix3 (0 : Fin 1) (0 : Fin 1) k) ?_
    rw [Shape.rowMajor_val_three, Shape.rowMajor_val_two]
    show ((0 : Nat) * 1 + 0) * 512 + k.val = 0 * 512 + k.val
    omega
/-- The body's term for a run, as a function of the position-independent part `v70` and the scoring row `v72`, at
    position `k`. -/
private theorem pay12_apply (v70 v72 : FVec Ideal S1x512 .f32) (xc : Vec Ideal S1x512x512 .f32) (w4 : Vec Ideal S512x512 .bf16)
    (mc : Vec Ideal S1x1x512 .f32) (k : Fin 512) :
    k0_pay12 (F := Ideal) v70 v72 xc w4 mc (ix2 (0 : Fin 1) k)
      = Ideal.exp (∑ d : Fin 512, Ideal.tanh ((∑ j : Fin 512, xc (ix3 (0 : Fin 1) k j) * w4 (ix2 j d)) + v70 (ix2 (0 : Fin 1) d))
            * v72 (ix2 (0 : Fin 1) d)) * mc (ix3 (0 : Fin 1) (0 : Fin 1) k) := by
  unfold k0_pay12
  refine (en_apply _ mc k).trans ?_
  refine congrArg (fun a => Ideal.exp a * mc (ix3 (0 : Fin 1) (0 : Fin 1) k)) ?_
  refine (score_apply _ v72 _ _ k).trans ?_
  refine Finset.sum_congr rfl fun d _ => ?_
  refine congrArg (· * v72 (ix2 (0 : Fin 1) d)) ?_
  exact hidden_apply xc w4 v70 k d

/-- The body's other three terms for a run are this same term: the same operations in the same order, with `v70` and
    `v72` built inside, or the hidden layer passed in. -/
private theorem pay8_eq (v67 : FVec Ideal S1x512 .f32) (v68 : Vec Ideal S1x1x512 .f32) (v71 : Vec Ideal S1x512 .f32)
    (xc : Vec Ideal S1x512x512 .f32) (w4 : Vec Ideal S512x512 .bf16) (mc : Vec Ideal S1x1x512 .f32) :
    k0_pay8 (F := Ideal) v67 v68 v71 xc w4 mc = k0_pay12 (F := Ideal) (k0_pay6 v67 v68) (k0_pay7 v71) xc w4 mc := rfl
private theorem pay11_eq (v67 : FVec Ideal S1x512 .f32) (v68 : Vec Ideal S1x1x512 .f32) (v71 : Vec Ideal S1x512 .f32)
    (xc : Vec Ideal S1x512x512 .f32) (w4 : Vec Ideal S512x512 .bf16) (mc : Vec Ideal S1x1x512 .f32) :
    k0_pay11 (F := Ideal) (k0_pay10 v67 v68 v71 xc w4) mc = k0_pay12 (F := Ideal) (k0_pay6 v67 v68) (k0_pay7 v71) xc w4 mc := rfl
private theorem pay15_eq (v70 v72 : FVec Ideal S1x512 .f32)
    (xc : Vec Ideal S1x512x512 .f32) (w4 : Vec Ideal S512x512 .bf16) (mc : Vec Ideal S1x1x512 .f32) :
    k0_pay15 (F := Ideal) v72 (k0_pay14 v70 xc w4) mc = k0_pay12 (F := Ideal) v70 v72 xc w4 mc := rfl

/-! ## The position-independent part and the scoring row, over variables -/

/-- The pooled vector `P` times its weight block plus the hidden share, at feature `d`. -/
private theorem pay6_gen (P : FVec Ideal S1x512 .f32) (v65 : Vec Ideal S512x512 .bf16) (v68 : Vec Ideal S1x1x512 .f32) (d : Fin 512) :
    addf (matmul DS none (truncf .bf16 P bitsLt_bf16_f32)
          (shapeCast S512x512 v65 shapeCasts_S512x512_S512x512 : FVec Ideal S512x512 .bf16) (constant S1x512 .f32 0x00000000#32))
        (shapeCast S1x512 v68 shapeCasts_S1x1x512_S1x512 : FVec Ideal S1x512 .f32) (ix2 (0 : Fin 1) d)
      = (∑ j : Fin 512, P (ix2 (0 : Fin 1) j) * v65 (ix2 j d)) + v68 (ix3 (0 : Fin 1) (0 : Fin 1) d) := by
  show _ + _ = _
  refine congrArg₂ (· + ·) ?_ ?_
  · refine (mmS_apply _ _ d).trans ?_
    refine Finset.sum_congr rfl fun j _ => ?_
    refine congrArg (P (ix2 (0 : Fin 1) j) * ·) ?_
    rw [shapeCast_self]
  · refine shapeCast_apply v68 _ (ix2 (0 : Fin 1) d) (ix3 (0 : Fin 1) (0 : Fin 1) d) ?_
    rw [Shape.rowMajor_val_three, Shape.rowMajor_val_two]
    show ((0 : Nat) * 1 + 0) * 512 + d.val = 0 * 512 + d.val
    omega

/-- The same for the body's own term, whose pooled vector is the running maximum after the four runs. -/
private theorem pay6_apply (v30 : FVec Ideal S1x512 .f32) (v32 : FVec Ideal S512x512 .f32) (v33 : Vec Ideal S1x1x512 .f32)
    (v46 : Vec Ideal S1x512x512 .f32) (v48 : Vec Ideal S1x1x512 .f32) (v65 : Vec Ideal S512x512 .bf16)
    (v68 : Vec Ideal S1x1x512 .f32) (d : Fin 512) :
    k0_pay6 (F := Ideal) (k0_pay5 v30 v32 v33 v46 v48 v65) v68 (ix2 (0 : Fin 1) d)
      = (∑ j : Fin 512, k0_pay3 (F := Ideal) v30 v32 v33 v46 v48 (ix2 (0 : Fin 1) j) * v65 (ix2 j d))
        + v68 (ix3 (0 : Fin 1) (0 : Fin 1) d) := by
  unfold k0_pay6 k0_pay5
  generalize k0_pay3 (F := Ideal) v30 v32 v33 v46 v48 = P
  exact pay6_gen P v65 v68 d

/-- The scoring row is held as loaded. -/
private theorem pay7_eq (v71 : Vec Ideal S1x512 .f32) : k0_pay7 (F := Ideal) v71 = v71 := shapeCast_self _ _

/-! ## The loads -/

/-- A run's activations: the load of rows `o … o + 511` reads the block at position `o + k`. -/
private theorem ldX_apply (x0 : Vec Ideal S1x2048x512 .f32) (o : Nat) (inb : ∀ a, (![0, o, 0] : Fin 3 → Nat) a + S1x512x512.size a ≤ S1x2048x512.size a)
    (ho : o + 512 ≤ 2048) (k j : Fin 512) :
    View.ld x0 (Rect.unit (s := S1x2048x512) ![0, o, 0] S1x512x512.size inb) (ix3 (0 : Fin 1) k j) = bX x0 (sh o ho k) j := by
  show x0 ((Rect.unit (s := S1x2048x512) ![0, o, 0] S1x512x512.size inb).emb (ix3 (0 : Fin 1) k j)) = x0 (ix3 (0 : Fin 1) (sh o ho k) j)
  refine congrArg x0 (funext fun a => Fin.ext ?_)
  match a with
  | ⟨0, _⟩ => rfl
  | ⟨1, _⟩ => show o + 1 * k.val = o + k.val; omega
  | ⟨2, _⟩ => show 0 + 1 * j.val = j.val; omega

/-- A run's mask: the load of positions `o … o + 511` reads the block at position `o + k`. -/
private theorem ldM_apply (x1 : Vec Ideal S1x1x2048 .f32) (o : Nat) (inb : ∀ a, (![0, 0, o] : Fin 3 → Nat) a + S1x1x512.size a ≤ S1x1x2048.size a)
    (ho : o + 512 ≤ 2048) (k : Fin 512) :
    View.ld x1 (Rect.unit (s := S1x1x2048) ![0, 0, o] S1x1x512.size inb) (ix3 (0 : Fin 1) (0 : Fin 1) k) = bM x1 (sh o ho k) := by
  show x1 ((Rect.unit (s := S1x1x2048) ![0, 0, o] S1x1x512.size inb).emb (ix3 (0 : Fin 1) (0 : Fin 1) k)) = x1 (ix3 (0 : Fin 1) (0 : Fin 1) (sh o ho k))
  refine congrArg x1 (funext fun a => Fin.ext ?_)
  match a with
  | ⟨0, _⟩ => rfl
  | ⟨1, _⟩ => rfl
  | ⟨2, _⟩ => show o + 1 * k.val = o + k.val; omega

/-- The whole-buffer loads read the buffer. -/
private theorem ldW (w : Vec Ideal S512x512 .bf16) : View.ld w r0_9 = w :=
  View.ld_unit_zero (by funext a; match a with | ⟨0, _⟩ => rfl | ⟨1, _⟩ => rfl) _ w
private theorem ldBh (x2 : Vec Ideal S1x1x512 .f32) : View.ld x2 r0_8 = x2 :=
  View.ld_unit_zero (by funext a; match a with | ⟨0, _⟩ => rfl | ⟨1, _⟩ => rfl | ⟨2, _⟩ => rfl) _ x2
private theorem ldU (x5 : Vec Ideal S1x512 .f32) : View.ld x5 r0_10 = x5 :=
  View.ld_unit_zero (by funext a; match a with | ⟨0, _⟩ => rfl | ⟨1, _⟩ => rfl) _ x5

/-! ## The body's values -/

variable (x0 : Vec Ideal S1x2048x512 .f32) (x1 : Vec Ideal S1x1x2048 .f32) (x2 : Vec Ideal S1x1x512 .f32)
  (x3 x4 : Vec Ideal S512x512 .bf16) (x5 : Vec Ideal S1x512 .f32)

/-- The part of the pre-activation common to all positions, at feature `d`. -/
theorem tV70_apply (d : Fin 512) :
    tV70 x0 x1 x2 x3 (ix2 (0 : Fin 1) d) = (∑ k : Fin 512, poolR (bX x0) (bM x1) k * bW x3 k d) + bBh x2 d := by
  refine (pay6_apply _ _ _ _ _ (View.ld x3 r0_9) (View.ld x2 r0_8) d).trans ?_
  refine congrArg₂ (· + ·) (Finset.sum_congr rfl fun j _ => ?_) ?_
  · refine congrArg₂ (· * ·) (tPOOL_apply x0 x1 j) ?_
    rw [ldW]
  · rw [ldBh]

/-- The scoring row at feature `d`. -/
theorem tV72_apply (d : Fin 512) : tV72 x5 (ix2 (0 : Fin 1) d) = bU x5 d := by
  exact (congrFun (pay7_eq (View.ld x5 r0_10)) (ix2 (0 : Fin 1) d)).trans (congrFun (ldU x5) (ix2 (0 : Fin 1) d))

/-- A run read at position `k`, with the run's loads at offset `o`, is the row's masked weight at position `o + k`:
    the loads read the blocks at `o + k`, the position-independent part and the scoring row are the two values above,
    and what remains is the definition of the weight. -/
private theorem run_final (o : Nat)
    (inbX : ∀ a, (![0, o, 0] : Fin 3 → Nat) a + S1x512x512.size a ≤ S1x2048x512.size a)
    (inbM : ∀ a, (![0, 0, o] : Fin 3 → Nat) a + S1x1x512.size a ≤ S1x1x2048.size a)
    (ho : o + 512 ≤ 2048) (k : Fin 512) :
    Ideal.exp (∑ d : Fin 512, Ideal.tanh ((∑ j : Fin 512,
          View.ld x0 (Rect.unit (s := S1x2048x512) ![0, o, 0] S1x512x512.size inbX) (ix3 (0 : Fin 1) k j) * View.ld x4 r0_9 (ix2 j d))
          + tV70 x0 x1 x2 x3 (ix2 (0 : Fin 1) d)) * tV72 x5 (ix2 (0 : Fin 1) d))
        * View.ld x1 (Rect.unit (s := S1x1x2048) ![0, 0, o] S1x1x512.size inbM) (ix3 (0 : Fin 1) (0 : Fin 1) k)
      = enR (bX x0) (bM x1) (bBh x2) (bW x3) (bW x4) (bU x5) (sh o ho k) := by
  unfold enR scoreR preR
  refine congrArg₂ (fun a b => Ideal.exp a * b) ?_ (ldM_apply x1 o inbM ho k)
  refine Finset.sum_congr rfl fun d _ => ?_
  refine congrArg₂ (fun a b => Ideal.tanh a * b) ?_ (tV72_apply x5 d)
  refine congrArg₂ (· + ·) ?_ (tV70_apply x0 x1 x2 x3 d)
  refine Finset.sum_congr rfl fun j _ => ?_
  refine congrArg₂ (· * ·) (ldX_apply x0 o inbX ho k j) ?_
  rw [ldW]

/-- Run 0 (positions `0 … 511`). -/
theorem tE0_apply (k : Fin 512) :
    tE0 x0 x1 x2 x3 x4 x5 (ix2 (0 : Fin 1) k)
      = enR (bX x0) (bM x1) (bBh x2) (bW x3) (bW x4) (bU x5) (sh 0 (by decide) k) := by
  refine (congrFun (pay8_eq _ _ _ _ _ _) _).trans ?_
  refine (pay12_apply _ _ _ _ _ k).trans ?_
  exact run_final x0 x1 x2 x3 x4 x5 0 _ _ _ k

/-- Run 1 (positions `512 … 1023`). -/
theorem tE1_apply (k : Fin 512) :
    tE1 x0 x1 x2 x3 x4 x5 (ix2 (0 : Fin 1) k)
      = enR (bX x0) (bM x1) (bBh x2) (bW x3) (bW x4) (bU x5) (sh 512 (by decide) k) := by
  refine (congrFun (pay11_eq _ _ _ _ _ _) _).trans ?_
  refine (pay12_apply _ _ _ _ _ k).trans ?_
  exact run_final x0 x1 x2 x3 x4 x5 512 _ _ _ k

/-- Run 2 (positions `1024 … 1535`). -/
theorem tE2_apply (k : Fin 512) :
    tE2 x0 x1 x2 x3 x4 x5 (ix2 (0 : Fin 1) k)
      = enR (bX x0) (bM x1) (bBh x2) (bW x3) (bW x4) (bU x5) (sh 1024 (by decide) k) := by
  refine (pay12_apply _ _ _ _ _ k).trans ?_
  exact run_final x0 x1 x2 x3 x4 x5 1024 _ _ _ k

/-- Run 3 (positions `1536 … 2047`). -/
theorem tE3_apply (k : Fin 512) :
    tE3 x0 x1 x2 x3 x4 x5 (ix2 (0 : Fin 1) k)
      = enR (bX x0) (bM x1) (bBh x2) (bW x3) (bW x4) (bU x5) (sh 1536 (by decide) k) := by
  refine (congrFun (pay15_eq _ _ _ _ _) _).trans ?_
  refine (pay12_apply _ _ _ _ _ k).trans ?_
  exact run_final x0 x1 x2 x3 x4 x5 1536 _ _ _ k

end Cert.Attn.K

end
-- ==== Proof.KOut.lean ====
/-
  The kernel's second result at one grid point: the four runs' weights, each divided by the normaliser
  (the four runs' sums added one after the other from zero, plus `ε`) and stored over its own 512 positions,
  are together the row's normalised weights at all 2048 positions.
-/
import proofs.«403877_j76055280878095_3_alg».proof.Proof.KScore

noncomputable section

open scoped BigOperators

namespace Cert.Attn.K

open Idealize.ShloMosaic Idealize.ShloMosaic.ValueIdx Cert.KernelIdeal Cert.KernelIdeal.Gen Cert.Attn

/-- A row's sum over its 512 entries, re-laid from one element `[1]` to `[1, 1]`, read at its one index. -/
private theorem rowSum_apply (src : FVec Ideal S1x512 .f32) (acc : BitVec 32) (h : S1x512.Reduces [1] S1)
    (hφ : FKind.Formats .f32) (hacc : acc = FKind.add.neutral .f32 hφ) (hsc : S1.ShapeCasts S1x1) :
    shapeCast S1x1 (multiReduction (F := Ideal) .add [1] S1 src acc h hφ hacc) hsc (ix2 (0 : Fin 1) (0 : Fin 1))
      = ∑ k : Fin 512, src (ix2 (0 : Fin 1) k) := by
  refine (shapeCast_apply _ hsc _ (ix1 (0 : Fin 1)) rfl).trans ?_
  refine (Ideal.multiReduction_add_single src acc h hφ hacc _).trans ?_
  refine Finset.sum_congr rfl fun k _ => congrArg src ?_
  funext c
  apply Fin.ext
  rw [h.lift_val]
  match c with
  | ⟨0, _⟩ => rfl
  | ⟨1, _⟩ => rfl

/-- A running sum with one more row's sum added: the running sum plus the sum of the row's 512 entries. -/
private theorem addRowSum_apply (a : FVec Ideal S1x1 .f32) (src : FVec Ideal S1x512 .f32) (acc : BitVec 32)
    (h : S1x512.Reduces [1] S1) (hφ : FKind.Formats .f32) (hacc : acc = FKind.add.neutral .f32 hφ)
    (hsc : S1.ShapeCasts S1x1) :
    addf a (shapeCast S1x1 (multiReduction (F := Ideal) .add [1] S1 src acc h hφ hacc) hsc) (ix2 (0 : Fin 1) (0 : Fin 1))
      = a (ix2 (0 : Fin 1) (0 : Fin 1)) + ∑ k : Fin 512, src (ix2 (0 : Fin 1) k) :=
  congrArg (a (ix2 (0 : Fin 1) (0 : Fin 1)) + ·) (rowSum_apply src acc h hφ hacc hsc)

variable (x0 : Vec Ideal S1x2048x512 .f32) (x1 : Vec Ideal S1x1x2048 .f32) (x2 : Vec Ideal S1x1x512 .f32)
  (x3 x4 : Vec Ideal S512x512 .bf16) (x5 : Vec Ideal S1x512 .f32)

/-- The weights' sum after the first run: zero plus the sum of the weights of positions `0 … 511`. -/
private theorem tD0_apply :
    tD0 x0 x1 x2 x3 x4 x5 (ix2 (0 : Fin 1) (0 : Fin 1))
      = 0 + ∑ k : Fin 512, enR (bX x0) (bM x1) (bBh x2) (bW x3) (bW x4) (bU x5) (sh 0 (by decide) k) := by
  refine (addRowSum_apply _ _ _ _ _ _ _).trans ?_
  exact congrArg₂ (· + ·) Ideal.ofBits_zero_f32
    (Finset.sum_congr rfl fun k _ => tE0_apply x0 x1 x2 x3 x4 x5 k)

/-- The weights' sum after the third run: the first run's, plus the second's, plus the third's. -/
private theorem tD2_apply :
    tD2 x0 x1 x2 x3 x4 x5 (ix2 (0 : Fin 1) (0 : Fin 1))
      = ((0 + ∑ k : Fin 512, enR (bX x0) (bM x1) (bBh x2) (bW x3) (bW x4) (bU x5) (sh 0 (by decide) k))
          + ∑ k : Fin 512, enR (bX x0) (bM x1) (bBh x2) (bW x3) (bW x4) (bU x5) (sh 512 (by decide) k))
          + ∑ k : Fin 512, enR (bX x0) (bM x1) (bBh x2) (bW x3) (bW x4) (bU x5) (sh 1024 (by decide) k) := by
  refine (addRowSum_apply _ _ _ _ _ _ _).trans ?_
  refine congrArg₂ (· + ·) ?_ (Finset.sum_congr rfl fun k _ => tE2_apply x0 x1 x2 x3 x4 x5 k)
  refine (addRowSum_apply _ _ _ _ _ _ _).trans ?_
  exact congrArg₂ (· + ·) (tD0_apply x0 x1 x2 x3 x4 x5)
    (Finset.sum_congr rfl fun k _ => tE1_apply x0 x1 x2 x3 x4 x5 k)

/-- The normaliser the body divides by is the row's: the sum of all 2048 weights, from zero, plus `ε`. -/
theorem tDEN_apply :
    tDEN x0 x1 x2 x3 x4 x5 (ix2 (0 : Fin 1) (0 : Fin 1)) = denR (bX x0) (bM x1) (bBh x2) (bW x3) (bW x4) (bU x5) := by
  refine (addf_apply _ _ _).trans ?_
  unfold denR
  refine congrArg₂ (· + ·) ?_ rfl
  refine (addRowSum_apply _ _ _ _ _ _ _).trans ?_
  refine (congrArg₂ (· + ·) (tD2_apply x0 x1 x2 x3 x4 x5)
    (Finset.sum_congr rfl fun k _ => tE3_apply x0 x1 x2 x3 x4 x5 k)).trans ?_
  exact sum_chunks (enR (bX x0) (bM x1) (bBh x2) (bW x3) (bW x4) (bU x5))

/-- One run's stored values at a local index `(a, b, c)` of its `[1, 1, 512]` piece: the run's weight at its
    position `c` over the normaliser's one element. -/
private theorem piece_apply (e : FVec Ideal S1x512 .f32) (den : FVec Ideal S1x1 .f32) (hb : S1x1.Broadcasts S1x512)
    (hsc : S1x512.ShapeCasts S1x1x512) (a b : Fin 1) (c : Fin 512) :
    shapeCast S1x1x512 (divf e (broadcastTo S1x512 den hb)) hsc (ix3 a b c)
      = Ideal.div (e (ix2 (0 : Fin 1) c)) (den (ix2 (0 : Fin 1) (0 : Fin 1))) := by
  obtain rfl : b = 0 := Subsingleton.elim _ _
  refine (shapeCast_ab_1ab_apply _ hsc a (0 : Fin 1) c).trans ?_
  refine (divf_apply _ _ _).trans ?_
  refine congrArg (Ideal.div _) ?_
  refine broadcastTo_apply den hb _ (ix2 (0 : Fin 1) (0 : Fin 1)) ?_
  intro d
  match d with
  | ⟨0, _⟩ => rfl
  | ⟨1, _⟩ => rfl

/-- The run that starts at position `off`: its weights over the normaliser, stored through the rectangle of the
    positions `off … off + 511`, are the row's normalised weights at those positions. -/
private theorem run_piece (off : Nat) (ho : off + 512 ≤ 2048)
    (inb : ∀ a, (![0, 0, off] : Fin 3 → Nat) a + S1x1x512.size a ≤ S1x1x2048.size a)
    (e : FVec Ideal S1x512 .f32)
    (he : ∀ k : Fin 512, e (ix2 (0 : Fin 1) k)
      = enR (bX x0) (bM x1) (bBh x2) (bW x3) (bW x4) (bU x5) (sh off ho k))
    (hb : S1x1.Broadcasts S1x512) (hsc : S1x512.ShapeCasts S1x1x512) (x : S1x1x512.Idx) :
    shapeCast S1x1x512 (divf e (broadcastTo S1x512 (tDEN x0 x1 x2 x3 x4 x5) hb)) hsc x
      = (fun y : S1x1x2048.Idx =>
          outR (bX x0) (bM x1) (bBh x2) (bW x3) (bW x4) (bU x5) ⟨(y 2).val, (y 2).isLt⟩)
          ((Rect.unit (s := S1x1x2048) ![0, 0, off] S1x1x512.size inb).emb x) := by
  obtain ⟨a, b, c, rfl⟩ : ∃ (a b : Fin 1) (c : Fin 512), x = ix3 a b c := ⟨x 0, x 1, x 2, eq_ix3 x⟩
  refine (piece_apply _ _ hb hsc a b c).trans ?_
  rw [he c, tDEN_apply]
  show _ = outR _ _ _ _ _ _ _
  unfold outR
  refine congrArg (fun r => Ideal.div (enR (bX x0) (bM x1) (bBh x2) (bW x3) (bW x4) (bU x5) r) _) ?_
  apply Fin.ext
  show off + c.val = off + 1 * c.val
  omega

/-- What the body leaves in the second output window's buffer: the normalised weight, per position. -/
theorem out0_7_eq :
    out0_7 (F := Ideal) x0 x1 x2 x3 x4 x5
      = fun y : S1x1x2048.Idx =>
          outR (bX x0) (bM x1) (bBh x2) (bW x3) (bW x4) (bU x5) ⟨(y 2).val, (y 2).isLt⟩ := by
  refine (out0_7_eq_terms x0 x1 x2 x3 x4 x5).trans ?_
  funext y
  refine View.canon_apply_of_pieces (Val := Elt Ideal) (e := .f32)
    (fun y : S1x1x2048.Idx => outR (bX x0) (bM x1) (bBh x2) (bW x3) (bW x4) (bU x5) ⟨(y 2).val, (y 2).isLt⟩)
    _ ?_ y (cover0_7 _ _ _ _ y)
  intro p hp
  simp only [List.mem_cons, List.mem_nil_iff, or_false] at hp
  rcases hp with rfl | rfl | rfl | rfl
  · exact fun x => run_piece x0 x1 x2 x3 x4 x5 1536 (by decide) inb_S1x1x2048_S1x1x512_0_0_1536
      (tE3 x0 x1 x2 x3 x4 x5) (tE3_apply x0 x1 x2 x3 x4 x5) broadcasts_S1x1_S1x512 shapeCasts_S1x512_S1x1x512 x
  · exact fun x => run_piece x0 x1 x2 x3 x4 x5 1024 (by decide) inb_S1x1x2048_S1x1x512_0_0_1024
      (tE2 x0 x1 x2 x3 x4 x5) (tE2_apply x0 x1 x2 x3 x4 x5) broadcasts_S1x1_S1x512 shapeCasts_S1x512_S1x1x512 x
  · exact fun x => run_piece x0 x1 x2 x3 x4 x5 512 (by decide) inb_S1x1x2048_S1x1x512_0_0_512
      (tE1 x0 x1 x2 x3 x4 x5) (tE1_apply x0 x1 x2 x3 x4 x5) broadcasts_S1x1_S1x512 shapeCasts_S1x512_S1x1x512 x
  · exact fun x => run_piece x0 x1 x2 x3 x4 x5 0 (by decide) inb_S1x1x2048_S1x1x512_0_0_0
      (tE0 x0 x1 x2 x3 x4 x5) (tE0_apply x0 x1 x2 x3 x4 x5) broadcasts_S1x1_S1x512 shapeCasts_S1x512_S1x1x512 x

end Cert.Attn.K

end
-- ==== Proof.KValue.lean ====
/-
  The kernel program's two results as functions of the argument arrays.

  At grid point `t` the body leaves, in the two output windows' buffers, the masked maximum and the normalised
  weights of batch row `t` (the per-point modules); the point's blocks are row `t` of the two result arrays
  `[32, 1, 512]` and `[32, 1, 2048]`, and the 32 points' blocks tile them, so after the launch the arrays hold the
  two functions at every index. The two lines after the launch re-lay them to `[32, 512]` and `[32, 2048, 1]`
  in row-major order, which moves `(b, 0, d)` to `(b, d)` and `(b, 0, r)` to `(b, r, 0)`.
-/
import proofs.«403877_j76055280878095_3_alg».proof.Proof.KIn
import proofs.«403877_j76055280878095_3_alg».proof.Proof.KPool
import proofs.«403877_j76055280878095_3_alg».proof.Proof.KOut
import Idealize.ShloMosaic.Lib.Pipeline.Value
import Idealize.ShloMosaic.Lib.StableHlo.Run

noncomputable section

open scoped BigOperators

namespace Cert.Attn.KV

open Idealize.ShloMosaic Idealize.ShloMosaic.TcCoe Idealize.SL.Sem Idealize.ShloMosaic.ValueIdx
open Idealize.ShloMosaic.Pipeline (Dat)
open Cert.KernelIdeal Cert.KernelIdeal.Gen Cert.Attn Cert.Attn.K

variable (m : (ℓ : Loc nD τ sig) → Buf (Elt Ideal) ℓ) (ρ : Dev nD → PrngReg)

/-! ## The two arrays the launch writes -/

/-- The first result array `[32, 1, 512]` after the launch: the masked maximum of batch row `i 0` at feature `i 2`. -/
def P3 (c : Dev nD) : FVec Ideal S32x1x512 .f32 := fun i =>
  poolR (Xb (a0 m c) ⟨(i 0).val, (i 0).isLt⟩) (Mb (a2 m c) ⟨(i 0).val, (i 0).isLt⟩) ⟨(i 2).val, (i 2).isLt⟩

/-- The second result array `[32, 1, 2048]` after the launch: the normalised weight of batch row `i 0` at position `i 2`. -/
def E3 (c : Dev nD) : FVec Ideal S32x1x2048 .f32 := fun i =>
  outR (Xb (a0 m c) ⟨(i 0).val, (i 0).isLt⟩) (Mb (a2 m c) ⟨(i 0).val, (i 0).isLt⟩)
    (Bhb (a1 m c) (a3 m c) (a5 m c) ⟨(i 0).val, (i 0).isLt⟩) (Wpf (a3 m c)) (Wxf (a3 m c)) (Uf (a4 m c)) ⟨(i 2).val, (i 2).isLt⟩

theorem P3_of (c : Dev nD) (i : S32x1x512.Idx) (b : Fin 32) (d : Fin 512) (hb : (i 0).val = b.val) (hd : (i 2).val = d.val) :
    P3 m c i = poolR (Xb (a0 m c) b) (Mb (a2 m c) b) d := by
  obtain rfl : b = ⟨(i 0).val, (i 0).isLt⟩ := Fin.ext hb.symm
  obtain rfl : d = ⟨(i 2).val, (i 2).isLt⟩ := Fin.ext hd.symm
  rfl

theorem E3_of (c : Dev nD) (i : S32x1x2048.Idx) (b : Fin 32) (r : Fin 2048) (hb : (i 0).val = b.val) (hr : (i 2).val = r.val) :
    E3 m c i = outR (Xb (a0 m c) b) (Mb (a2 m c) b) (Bhb (a1 m c) (a3 m c) (a5 m c) b) (Wpf (a3 m c)) (Wxf (a3 m c)) (Uf (a4 m c)) r := by
  obtain rfl : b = ⟨(i 0).val, (i 0).isLt⟩ := Fin.ext hb.symm
  obtain rfl : r = ⟨(i 2).val, (i 2).isLt⟩ := Fin.ext hr.symm
  rfl

/-- The two output windows' index maps over the grid: block `(t, 0, 0)` at point `t`. -/
theorem idx_out : ∀ t : Fin cfg0.N, win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- What point `t` writes back through the first output window is block `t` of `P3`. -/
theorem flushed6_eq (c : Dev nD) (t : Fin cfg0.N) :
    (dats m 0 c).flushed 6 t = ((cfg0.win 6).blk t).view.read (Elt Ideal) (P3 m c) := by
  show (cfg0.win 6).cut (grid0.coords t) ((dats m 0 c).after 6 t) = _
  rw [after0_6, out0_6_eq (iblk m c 0 t) (iblk m c 1 t) (iblk m c 2 t) (iblk m c 3 t) (iblk m c 4 t) (iblk m c 5 t),
    rowX m c t, rowM m c t]
  obtain ⟨e0, e1, e2, -, -, -⟩ := idx_out t
  funext j
  refine Eq.symm (P3_of m c _ (tb t) ⟨(j 2).val, (j 2).isLt⟩ ?_ ?_)
  · show win0_6.index t (0 : Fin 3) * 1 + 1 * (j 0).val = t.val
    have hj : (j 0).val < 1 := (j 0).isLt
    omega
  · show win0_6.index t (2 : Fin 3) * 512 + 1 * (j 2).val = (j 2).val
    omega

/-- What point `t` writes back through the second output window is block `t` of `E3`. -/
theorem flushed7_eq (c : Dev nD) (t : Fin cfg0.N) :
    (dats m 0 c).flushed 7 t = ((cfg0.win 7).blk t).view.read (Elt Ideal) (E3 m c) := by
  show (cfg0.win 7).cut (grid0.coords t) ((dats m 0 c).after 7 t) = _
  rw [after0_7, out0_7_eq (iblk m c 0 t) (iblk m c 1 t) (iblk m c 2 t) (iblk m c 3 t) (iblk m c 4 t) (iblk m c 5 t),
    rowX m c t, rowM m c t, rowBh m c t, rowWp m c t, rowWx m c t, rowU m c t]
  obtain ⟨-, -, -, e0, e1, e2⟩ := idx_out t
  funext j
  refine Eq.symm (E3_of m c _ (tb t) ⟨(j 2).val, (j 2).isLt⟩ ?_ ?_)
  · show win0_7.index t (0 : Fin 3) * 1 + 1 * (j 0).val = t.val
    have hj : (j 0).val < 1 := (j 0).isLt
    omega
  · show win0_7.index t (2 : Fin 3) * 2048 + 1 * (j 2).val = (j 2).val
    omega

/-- An index of the first result array is in point `t`'s block iff each coordinate is in the block's range. -/
theorem mem_blk6 (t : Fin cfg0.N) (i : S32x1x512.Idx) :
    i ∈ ((cfg0.win 6).blk t).view.set ↔ ∀ a : Fin 3, win0_6.index t a * S1x1x512.size a ≤ (i a).val ∧ (i a).val < win0_6.index t a * S1x1x512.size a + S1x1x512.size a := by
  show i ∈ ((View.whole main_v12_0).slice (win0_6.rect t)).set ↔ _
  rw [View.set_slice_whole, Rect.mem_set_unit]
  exact Iff.rfl

theorem mem_blk7 (t : Fin cfg0.N) (i : S32x1x2048.Idx) :
    i ∈ ((cfg0.win 7).blk t).view.set ↔ ∀ a : Fin 3, win0_7.index t a * S1x1x2048.size a ≤ (i a).val ∧ (i a).val < win0_7.index t a * S1x1x2048.size a + S1x1x2048.size a := by
  show i ∈ ((View.whole main_v12_1).slice (win0_7.rect t)).set ↔ _
  rw [View.set_slice_whole, Rect.mem_set_unit]
  exact Iff.rfl

/-- The grid point of a batch row. -/
def pt (b : Nat) (hb : b < 32) : Fin cfg0.N := ⟨b, Nat.lt_of_lt_of_eq hb N_0.symm⟩

/-- Every index of the first result array is in the block of the point of its batch row. -/
theorem cover6 (i : S32x1x512.Idx) : ∃ t : Fin cfg0.N, (cfg0.win 6).flush t = true ∧ i ∈ ((cfg0.win 6).blk t).view.set := by
  have h0 : (i 0).val < 32 := (i 0).isLt
  have h1 : (i 1).val < 1 := (i 1).isLt
  have h2 : (i 2).val < 512 := (i 2).isLt
  refine ⟨pt (i 0).val h0, flush0_6 _, ?_⟩
  obtain ⟨e0, e1, e2, -, -, -⟩ := idx_out (pt (i 0).val h0)
  have ev : (pt (i 0).val h0).val = (i 0).val := rfl
  rw [mem_blk6]
  intro a
  match a with
  | ⟨0, _⟩ => show win0_6.index (pt (i 0).val h0) (0 : Fin 3) * 1 ≤ (i 0).val ∧ (i 0).val < win0_6.index (pt (i 0).val h0) (0 : Fin 3) * 1 + 1; omega
  | ⟨1, _⟩ => show win0_6.index (pt (i 0).val h0) (1 : Fin 3) * 1 ≤ (i 1).val ∧ (i 1).val < win0_6.index (pt (i 0).val h0) (1 : Fin 3) * 1 + 1; omega
  | ⟨2, _⟩ => show win0_6.index (pt (i 0).val h0) (2 : Fin 3) * 512 ≤ (i 2).val ∧ (i 2).val < win0_6.index (pt (i 0).val h0) (2 : Fin 3) * 512 + 512; omega

theorem cover7 (i : S32x1x2048.Idx) : ∃ t : Fin cfg0.N, (cfg0.win 7).flush t = true ∧ i ∈ ((cfg0.win 7).blk t).view.set := by
  have h0 : (i 0).val < 32 := (i 0).isLt
  have h1 : (i 1).val < 1 := (i 1).isLt
  have h2 : (i 2).val < 2048 := (i 2).isLt
  refine ⟨pt (i 0).val h0, flush0_7 _, ?_⟩
  obtain ⟨-, -, -, e0, e1, e2⟩ := idx_out (pt (i 0).val h0)
  have ev : (pt (i 0).val h0).val = (i 0).val := rfl
  rw [mem_blk7]
  intro a
  match a with
  | ⟨0, _⟩ => show win0_7.index (pt (i 0).val h0) (0 : Fin 3) * 1 ≤ (i 0).val ∧ (i 0).val < win0_7.index (pt (i 0).val h0) (0 : Fin 3) * 1 + 1; omega
  | ⟨1, _⟩ => show win0_7.index (pt (i 0).val h0) (1 : Fin 3) * 1 ≤ (i 1).val ∧ (i 1).val < win0_7.index (pt (i 0).val h0) (1 : Fin 3) * 1 + 1; omega
  | ⟨2, _⟩ => show win0_7.index (pt (i 0).val h0) (2 : Fin 3) * 2048 ≤ (i 2).val ∧ (i 2).val < win0_7.index (pt (i 0).val h0) (2 : Fin 3) * 2048 + 2048; omega

/-- The first result array after the launch. -/
theorem final6 (c : Dev nD) : (dats m 0 c).arrAt 6 cfg0.N = P3 m c :=
  (dats m 0 c).arrAt_eq_of_cover 6 (P3 m c) (fun t _ => flushed6_eq m c t) (cover6)

/-- The second result array after the launch. -/
theorem final7 (c : Dev nD) : (dats m 0 c).arrAt 7 cfg0.N = E3 m c :=
  (dats m 0 c).arrAt_eq_of_cover 7 (E3 m c) (fun t _ => flushed7_eq m c t) (cover7)

/-! ## The two lines after the launch -/

/-- The first result of the program: the first array re-laid `[32, 1, 512] → [32, 512]`. -/
theorem out13 (c : Dev nD) :
    Pipeline.afterTail₀ cfgs (dats m) 0 (V0 m) [hostOps1] c main_v13 = G0 (a0 m c) (a2 m c) := by
  unfold Pipeline.afterTail₀
  show StableHlo.after hostOps1 _ (Proc.devRef .tc main_v13) = _
  after_results
  rw [Pipeline.withArrays_arr spec0 launch0.win.arr_inj c _ _ 6, final6]
  funext i
  obtain ⟨b, d, rfl⟩ : ∃ (b : Fin 32) (d : Fin 512), i = ix2 b d := ⟨i 0, i 1, eq_ix2 i⟩
  refine (shapeCast_apply (P3 m c) shapeCasts_S32x1x512_S32x512 (ix2 b d) (ix3 b (0 : Fin 1) d) ?_).trans ?_
  · rw [Shape.rowMajor_val_three, Shape.rowMajor_val_two]
    show (b.val * 1 + 0) * 512 + d.val = b.val * 512 + d.val
    omega
  · exact P3_of m c _ b d rfl rfl

/-- The second result of the program: the second array re-laid `[32, 1, 2048] → [32, 2048, 1]`. -/
theorem out14 (c : Dev nD) :
    Pipeline.afterTail₀ cfgs (dats m) 0 (V0 m) [hostOps1] c main_v14
      = G1 (a0 m c) (a1 m c) (a2 m c) (a3 m c) (a4 m c) (a5 m c) := by
  unfold Pipeline.afterTail₀
  show StableHlo.after hostOps1 _ (Proc.devRef .tc main_v14) = _
  after_results
  rw [Pipeline.withArrays_arr spec0 launch0.win.arr_inj c _ _ 7, final7]
  funext i
  obtain ⟨b, r, z, rfl⟩ : ∃ (b : Fin 32) (r : Fin 2048) (z : Fin 1), i = ix3 b r z := ⟨i 0, i 1, i 2, eq_ix3 i⟩
  refine (shapeCast_apply (E3 m c) shapeCasts_S32x1x2048_S32x2048x1 (ix3 b r z) (ix3 b (0 : Fin 1) r) ?_).trans ?_
  · rw [Shape.rowMajor_val_three, Shape.rowMajor_val_three]
    have hz : z.val = 0 := by have := z.isLt; omega
    show (b.val * 1 + 0) * 2048 + r.val = (b.val * 2048 + r.val) * 1 + z.val
    omega
  · exact E3_of m c _ b r rfl rfl

/-! ## The run, read -/

/-- Every weakly fair execution of the kernel program terminates with its two results at the specification's two functions of
    the argument arrays, and the arguments unchanged. -/
theorem run : θ_run defs (onTc (τ := τ) (main (F := Ideal))) ⟨m, fun _ => 0, ρ⟩ fun r => ∀ c : Dev nD,
      r.2.mem ((c.tc : Thread nD τ).loc main_v13) = G0 (a0 m c) (a2 m c)
      ∧ r.2.mem ((c.tc : Thread nD τ).loc main_v14) = G1 (a0 m c) (a1 m c) (a2 m c) (a3 m c) (a4 m c) (a5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v13 (Pipeline.mem_restRefs_of main_v13 (by decide) (by decide))).trans (out13 m c),
     ((h c).2 main_v14 (Pipeline.mem_restRefs_of main_v14 (by decide) (by decide))).trans (out14 m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

end Cert.Attn.KV

end
-- ==== Proof.lean ====
/-
  An additive-attention layer, one batch row per grid point, against its plain array reference, over the extended reals.

  Both programs compute, per batch row: the masked maximum over the 2048 positions (a zero mask adds `-10⁶`), the hidden
  layer `tanh (x · Wx + pooled · Wp + (h · Wh + b))`, its score against `u`, the weights `exp (score) · mask`, and the weights
  over their sum plus `ε`. The kernel takes the positions in four runs of 512, starting its running maximum from a finite
  stand-in that the idealization names `-∞` (the identity of `max`, as the reference's own reduction starts from), adds the
  four runs' weight sums one after the other, and adds the three blocks' products of the weight matrix where the reference
  contracts the concatenation `[pooled, x, h]` with the whole matrix. Over the extended reals these are the same numbers:
  `max` and `+` are commutative and associative with `⊥` and `0` neutral, and `0 · c = 0`, `1 · c = c`; no finiteness is used.

  The three frames are the generated ones (the reference's is its run with the results dropped); the one rewrite of the
  idealization is the named constant's own statement; the value claim states both runs' results as the specification's two
  functions of the argument arrays.
-/
import proofs.«403877_j76055280878095_3_alg».proof.Defs
import proofs.«403877_j76055280878095_3_alg».proof.Proof.Gen.Kernel
import proofs.«403877_j76055280878095_3_alg».proof.Proof.Gen.Kernel.Skeleton
import proofs.«403877_j76055280878095_3_alg».proof.Proof.Gen.Kernel.Launch
import proofs.«403877_j76055280878095_3_alg».proof.Proof.Gen.Kernel.Points
import proofs.«403877_j76055280878095_3_alg».proof.Proof.Gen.Kernel.Frame
import proofs.«403877_j76055280878095_3_alg».proof.Proof.Gen.KernelIdeal
import proofs.«403877_j76055280878095_3_alg».proof.Proof.Gen.KernelIdeal.Skeleton
import proofs.«403877_j76055280878095_3_alg».proof.Proof.Gen.KernelIdeal.Launch
import proofs.«403877_j76055280878095_3_alg».proof.Proof.Gen.KernelIdeal.Points
import proofs.«403877_j76055280878095_3_alg».proof.Proof.Gen.KernelIdeal.Frame
import proofs.«403877_j76055280878095_3_alg».proof.Proof.Gen.ReferenceIdeal
import proofs.«403877_j76055280878095_3_alg».proof.Proof.Gen.Pre_finite_inputs
import proofs.«403877_j76055280878095_3_alg».proof.Proof.RefRun
import proofs.«403877_j76055280878095_3_alg».proof.Proof.RefRead
import proofs.«403877_j76055280878095_3_alg».proof.Proof.RefValue
import proofs.«403877_j76055280878095_3_alg».proof.Proof.KValue
import Idealize.ShloMosaic.Adequacy
import Idealize.ShloMosaic.Init

noncomputable section

namespace Cert.Proof

open Idealize.ShloMosaic Idealize.SL.Sem Cert.Kernel

/-- The word-level kernel runs and keeps its arguments. -/
theorem frame_k : Cert.frame_Kernel :=
  fun m ρ _ => Cert.Kernel.Gen.frame m ρ

/-- The idealized kernel runs and keeps its arguments. -/
theorem frame_ki : Cert.frame_KernelIdeal :=
  fun m ρ _ => Cert.KernelIdeal.Gen.frame m ρ

/-- The reference runs and keeps its arguments: its run, the two results dropped. -/
theorem frame_ri : Cert.frame_ReferenceIdeal :=
  fun m ρ _ => (θ_run Cert.ReferenceIdeal.defs _ _).mono (fun _ h c => (h c).2.2)
    (Cert.ReferenceIdeal.ValueP.run (F := Ideal) m ρ)

/-- The idealization's one rewrite: the running maximum's starting value is named `-∞`. -/
theorem preserves : Cert.preserves_Kernel_KernelIdeal :=
  IdealRules.named_const.statement Cert.KernelIdeal.κ "neg_big" .f32 0xF149F2CA#32 ⊥ rfl

/-- From memories that agree on the arguments both programs end with the masked maximum and the normalised weights as the
    specification's two functions of the arguments. -/
theorem algebraic : Cert.algebraic_KernelIdeal_ReferenceIdeal := by
  intro m ρ m' ρ' _ hagree
  refine ⟨fun c => Cert.Attn.G0 (Cert.Attn.KV.a0 m c) (Cert.Attn.KV.a2 m c),
    fun c => Cert.Attn.G1 (Cert.Attn.KV.a0 m c) (Cert.Attn.KV.a1 m c) (Cert.Attn.KV.a2 m c) (Cert.Attn.KV.a3 m c)
      (Cert.Attn.KV.a4 m c) (Cert.Attn.KV.a5 m c),
    Cert.Attn.KV.run m ρ, ?_⟩
  refine (θ_run Cert.ReferenceIdeal.defs _ _).mono (fun _ h c => ?_) (Cert.ReferenceIdeal.ValueP.run (F := Ideal) m' ρ')
  obtain ⟨e0, e1, e2, e3, e4, e5⟩ := hagree c
  refine ⟨(h c).1.trans ?_, (h c).2.1.trans ?_, (h c).2.2⟩
  · rw [Cert.ReferenceIdeal.ReadP.val_main_v9_eq, Cert.Attn.R.ref_pool, e0, e2]
  · rw [Cert.ReferenceIdeal.ReadP.val_main_v29_eq, Cert.Attn.R.ref_out, e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
